-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S16384x64 : Shape := ⟨2, ![16384, 64]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x8192 .f32) (main_arg1 : FVec F S16384x64 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x8192 : Shape := ⟨2, ![16384, 8192]⟩
abbrev S16384x64 : Shape := ⟨2, ![16384, 64]⟩
abbrev S16384x1 : Shape := ⟨2, ![16384, 1]⟩
abbrev S1x8192 : Shape := ⟨2, ![1, 8192]⟩
abbrev S8192x64 : Shape := ⟨2, ![8192, 64]⟩
abbrev S256x8192 : Shape := ⟨2, ![256, 8192]⟩
abbrev S256x64 : Shape := ⟨2, ![256, 64]⟩
abbrev S256x1 : Shape := ⟨2, ![256, 1]⟩
abbrev S256 : Shape := ⟨1, ![256]⟩
abbrev S8192 : Shape := ⟨1, ![8192]⟩
abbrev S8192x1 : Shape := ⟨2, ![8192, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x8192, .f32⟩
  | .hbm, ⟨1, _⟩ => ⟨S16384x64, .f32⟩
  | .hbm, ⟨2, _⟩ => ⟨S16384x1, .f32⟩
  | .hbm, ⟨3, _⟩ => ⟨S1x8192, .f32⟩
  | .hbm, ⟨4, _⟩ => ⟨S8192x64, .f32⟩
  | .hbm, ⟨5, _⟩ => ⟨S8192x1, .f32⟩
  | .hbm, ⟨6, _⟩ => ⟨S8192x64, .f32⟩
  | .hbm, ⟨7, _⟩ => ⟨S8192x64, .f32⟩
  | .hbm, ⟨8, _⟩ => ⟨S16384x64, .f32⟩
  | .local _ .vmem, ⟨0, _⟩ => ⟨S256x8192, .f32⟩
  | .local _ .vmem, ⟨1, _⟩ => ⟨S256x8192, .f32⟩
  | .local _ .vmem, ⟨2, _⟩ => ⟨S256x64, .f32⟩
  | .local _ .vmem, ⟨3, _⟩ => ⟨S256x64, .f32⟩
  | .local _ .vmem, ⟨4, _⟩ => ⟨S256x1, .f32⟩
  | .local _ .vmem, ⟨5, _⟩ => ⟨S256x1, .f32⟩
  | .local _ .vmem, ⟨6, _⟩ => ⟨S1x8192, .f32⟩
  | .local _ .vmem, ⟨7, _⟩ => ⟨S8192x64, .f32⟩
  | .local _ .vmem, ⟨8, _⟩ => ⟨S8192x64, .f32⟩
  | .local _ .vmem, ⟨9, _⟩ => ⟨S1x8192, .f32⟩
  | .local _ .vmem, ⟨10, _⟩ => ⟨S256x8192, .f32⟩
  | .local _ .vmem, ⟨11, _⟩ => ⟨S256x8192, .f32⟩
  | .local _ .vmem, ⟨12, _⟩ => ⟨S8192x64, .f32⟩
  | .local _ .vmem, ⟨13, _⟩ => ⟨S256x1, .f32⟩
  | .local _ .vmem, ⟨14, _⟩ => ⟨S256x1, .f32⟩
  | .local _ .vmem, ⟨15, _⟩ => ⟨S256x64, .f32⟩
  | .local _ .vmem, ⟨16, _⟩ => ⟨S256x64, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v25 : BitVec 1 := Scalar.cmpi .eq arg0 c63_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x8192_S256x8192_0_0 : ∀ a, (![0, 0] : Fin 2 → Nat) a + S256x8192.size a ≤ S256x8192.size a
  h_S256x8192 : 0 < S256x8192.numel
  inb_S256x64_S256x64_0_0 : ∀ a, (![0, 0] : Fin 2 → Nat) a + S256x64.size a ≤ S256x64.size a
  h_S256x64 : 0 < S256x64.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reduces_S256x8192_S8192 : S256x8192.Reduces [0] S8192
  shapeCasts_S8192_S1x8192 : S8192.ShapeCasts S1x8192
  broadcasts_S256x1_S256x64 : S256x1.Broadcasts S256x64
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S8192x1 : S1x8192.ShapeCasts S8192x1
  bcast_S8192x1_S8192x64_0_1 : S8192x1.BroadcastsInDim S8192x64 (![0, 1] : Fin 2 → Fin S8192x64.rank)
  shapeCasts_S256x1_S256x1 : S256x1.ShapeCasts S256x1
  dot_S256x8192_S256x64_S8192x64_0_0_1_1_n_n_wf : DotDims.WF S256x8192 S256x64 S8192x64 [0] [0] [1] [1] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S8192x64.size a
  hwx0_4 : ∀ i : grid0.Coords, EltTy.bits .f32 = 32 ∨ (Rect.block (s := S8192x64) S8192x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S16384x8192.size a
  hwx1_0 : ∀ i : grid1.Coords, EltTy.bits .f32 = 32 ∨ (Rect.block (s := S16384x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S16384x1.size a
  hwx1_2 : ∀ i : grid1.Coords, EltTy.bits .f32 = 32 ∨ (Rect.block (s := S16384x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S16384x64.size a
  hwx1_3 : ∀ i : grid1.Coords, EltTy.bits .f32 = 32 ∨ (Rect.block (s := S16384x64) S256x64.size (cc1_transform_3 i) (hinb1_3 i)).WholeWords (EltTy.packing .f32)

variable [Facts₀]

def dot_S256x8192_S256x64_S8192x64_0_0_1_1_n_n : DotDims S256x8192 S256x64 S8192x64 where
  lhsContracting := [0]
  rhsContracting := [0]
  lhsNonContracting := [1]
  rhsNonContracting := [1]
  lhsBatch := []
  rhsBatch := []
  wf := dot_S256x8192_S256x64_S8192x64_0_0_1_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8192x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x8192 : Shape := ⟨2, ![16384, 8192]⟩
abbrev S16384x64 : Shape := ⟨2, ![16384, 64]⟩
abbrev S_ : Shape := ⟨0, ![]⟩
abbrev S16384 : Shape := ⟨1, ![16384]⟩
abbrev S8192 : Shape := ⟨1, ![8192]⟩
abbrev S16384x1 : Shape := ⟨2, ![16384, 1]⟩
abbrev S8192x16384 : Shape := ⟨2, ![8192, 16384]⟩
abbrev S8192x64 : Shape := ⟨2, ![8192, 64]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x64, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S8192, .f32⟩
  | .hbm, ⟨6, _⟩ => ⟨S16384x1, .f32⟩
  | .hbm, ⟨7, _⟩ => ⟨S16384x64, .f32⟩
  | .hbm, ⟨8, _⟩ => ⟨S16384x64, .f32⟩
  | .hbm, ⟨9, _⟩ => ⟨S8192x16384, .f32⟩
  | .hbm, ⟨10, _⟩ => ⟨S8192x64, .f32⟩
  | .hbm, ⟨11, _⟩ => ⟨S8192x1, .f32⟩
  | .hbm, ⟨12, _⟩ => ⟨S8192x64, .f32⟩
  | .hbm, ⟨13, _⟩ => ⟨S8192x64, .f32⟩
  | .hbm, ⟨14, _⟩ => ⟨S16384x64, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S16384x8192_S16384_d1 : S16384x8192.ReducesTo [1] S16384
  h_S_ : 0 < S_.numel
  reducesTo_S16384x8192_S8192_d0 : S16384x8192.ReducesTo [0] S8192
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  transposes_S16384x8192_S8192x16384_1_0 : S16384x8192.Transposes [1, 0] S8192x16384
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x16384_S16384x64_S8192x64_1_0_0_1_n_n_wf : DotDims.WF S8192x16384 S16384x64 S8192x64 [1] [0] [0] [1] [] []
  dot_S16384x8192_S8192x64_S16384x64_1_0_0_1_n_n_wf : DotDims.WF S16384x8192 S8192x64 S16384x64 [1] [0] [0] [1] [] []

variable [Facts₀]

def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf
def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf

class Facts : Prop extends Facts₀ where

variable [Facts]
-- ==== Proof.BAcc.lean ====
/-
  The two running sums of the first sweep. The sweep visits the 64 row blocks of the incidence matrix in order. At each
  block it adds, into one buffer, the block's contribution to the product of the transposed incidence matrix with the
  degree-scaled features, and, into another, the block's column sums. Both buffers are cleared at the first block, so
  after block `n` they hold the contributions of blocks `0 … n` added onto zero, in visiting order.
-/
import proofs.«101532_j26061861552225_1_alg».proof.Proof.Gen.Kernel.Skeleton

noncomputable section

namespace Cert.Kernel.Hand

open Idealize.ShloMosaic Cert.Kernel Cert.Kernel.Gen

variable {F : FTy → Type} [FloatOps F]

/-- The edge-by-feature running sum after block `n`, from the incidence blocks `hb` and the feature blocks `fb`:
    block `0`'s contribution added onto the cleared buffer, then one more block's contribution at each step. -/
def accX (hb : ℕ → Vec F S256x8192 .f32) (fb : ℕ → Vec F S256x64 .f32) : ℕ → Vec F S8192x64 .f32
  | 0 => k0_pay4 (hb 0) (fb 0) (k0_pay2 (F := F))
  | n + 1 => k0_pay4 (hb (n + 1)) (fb (n + 1)) (accX hb fb n)

/-- The running column sums after block `n`: block `0`'s column sums added onto the cleared buffer, then one more
    block's at each step. -/
def accE (hb : ℕ → Vec F S256x8192 .f32) : ℕ → Vec F S1x8192 .f32
  | 0 => k0_pay5 (hb 0) (k0_pay3 (F := F))
  | n + 1 => k0_pay5 (hb (n + 1)) (accE hb n)

theorem accX_zero (hb : ℕ → Vec F S256x8192 .f32) (fb : ℕ → Vec F S256x64 .f32) :
    accX hb fb 0 = k0_pay4 (hb 0) (fb 0) (k0_pay2 (F := F)) := rfl
theorem accX_succ (hb : ℕ → Vec F S256x8192 .f32) (fb : ℕ → Vec F S256x64 .f32) (n : ℕ) :
    accX hb fb (n + 1) = k0_pay4 (hb (n + 1)) (fb (n + 1)) (accX hb fb n) := rfl
theorem accE_zero (hb : ℕ → Vec F S256x8192 .f32) : accE hb 0 = k0_pay5 (hb 0) (k0_pay3 (F := F)) := rfl
theorem accE_succ (hb : ℕ → Vec F S256x8192 .f32) (n : ℕ) : accE hb (n + 1) = k0_pay5 (hb (n + 1)) (accE hb n) := rfl

end Cert.Kernel.Hand

end
-- ==== Proof.BStage1.lean ====
/-
  The first sweep's body at one grid point, in its three situations. At every point the body stores the block's row sums
  and adds the block's contributions onto the two running sums it keeps between points. At the first point it clears the
  running sums before adding; at the last point it also copies the finished sums into the two result buffers that are
  written back only then. At the other points those two result buffers are not touched at all.
-/
import proofs.«101532_j26061861552225_1_alg».proof.Proof.BAcc
import proofs.«101532_j26061861552225_1_alg».proof.Proof.Gen.Kernel.Launch
import proofs.«101532_j26061861552225_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions the body branches on, decided over the grid -/

/-- "This is the first point": the body's test of the grid coordinate against zero. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- "This is the last point": the body's test of the grid coordinate against 63. -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

/-- Every access of the body is at offset zero and of the buffer's full extent. -/
theorem offZero : (![0, 0] : Fin 2 → Nat) = fun _ => 0 := funext fun a => by fin_cases a <;> rfl

/-! ## A point that is neither the first nor the last -/

set_option maxHeartbeats 2000000 in
/-- The running sums are at `s6`, `s7`; the body leaves the block's row sums in the degree buffer and the running sums
    with the block's contributions added. -/
theorem stage1_mid (c : Dev nD) (E : Set ℕ) (i : grid0.Coords) (hc0 : ¬condFirst i) (hc1 : ¬condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (s6 : Vec F S8192x64 .f32) (s7 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1
            ∗ owns (c : Thread nD τ) arg3 fullShare (k0_pay1 x0)
            ∗ owns (c : Thread nD τ) arg6 fullShare (k0_pay4 x0 x1 s6) ∗ owns (c : Thread nD τ) arg7 fullShare (k0_pay5 x0 s7)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H6]
  · iexists _; isplitr
    swap; · iexact H6
    ipureintro
    rw [View.read_writes_eq_canon _ _ _ (View.cover_of_tiled _ S8192x64.size (by rfl)), View.canon_unit_zero offZero]
    simp only [View.readAt_eq_ld, View.ld_unit_zero (S := S256x8192) offZero, View.ld_unit_zero (S := S256x64) offZero,
      View.ld_unit_zero (S := S8192x64) offZero]
  iexists _; isplitr
  swap; · iexact H7
  ipureintro
  rw [View.read_writes_eq_canon _ _ _ (View.cover_of_tiled _ S1x8192.size (by rfl)), View.canon_unit_zero offZero]
  simp only [View.readAt_eq_ld, View.ld_unit_zero (S := S256x8192) offZero, View.ld_unit_zero (S := S1x8192) offZero]

/-! ## The first point -/

set_option maxHeartbeats 2000000 in
/-- The running sums hold anything; the body clears them and leaves the block's contributions added onto zero. -/
theorem stage1_first (c : Dev nD) (E : Set ℕ) (i : grid0.Coords) (hc0 : condFirst i) (hc1 : ¬condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k0_pay1 x0)
            ∗ owns (c : Thread nD τ) arg6 fullShare (k0_pay4 x0 x1 (k0_pay2 (F := F))) ∗ owns (c : Thread nD τ) arg7 fullShare (k0_pay5 x0 (k0_pay3 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H6]
  · iexists _; isplitr
    swap; · iexact H6
    ipureintro
    sl_unfold_words
    rw [View.read_writes_eq_canon _ _ _ (fun y => ⟨_, List.mem_cons.mpr (Or.inl rfl), View.mem_set_unit_zero offZero inb_S8192x64_S8192x64_0_0 y⟩),
      View.canon_cons_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  iexists _; isplitr
  swap; · iexact H7
  ipureintro
  sl_unfold_words
  rw [View.read_writes_eq_canon _ _ _ (fun y => ⟨_, List.mem_cons.mpr (Or.inl rfl), View.mem_set_unit_zero offZero inb_S1x8192_S1x8192_0_0 y⟩),
    View.canon_cons_unit_zero offZero, View.readCov_unit_zero _ offZero]
  simp only [View.readAt_eq_ld, View.ld_unit_zero (S := S256x8192) offZero, View.ld_unit_zero (S := S256x64) offZero, View.ld_unit_zero (S := S8192x64) offZero, View.ld_unit_zero (S := S1x8192) offZero]

/-! ## The last point -/

set_option maxHeartbeats 2000000 in
/-- As at a middle point, and the two result buffers (holding anything) are left at the finished running sums. -/
theorem stage1_last (c : Dev nD) (E : Set ℕ) (i : grid0.Coords) (hc0 : ¬condFirst i) (hc1 : condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (s6 : Vec F S8192x64 .f32) (s7 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1
            ∗ owns (c : Thread nD τ) arg3 fullShare (k0_pay1 x0)
            ∗ owns (c : Thread nD τ) arg4 fullShare (k0_pay5 x0 s7) ∗ owns (c : Thread nD τ) arg5 fullShare (k0_pay4 x0 x1 s6)
            ∗ owns (c : Thread nD τ) arg6 fullShare (k0_pay4 x0 x1 s6) ∗ owns (c : Thread nD τ) arg7 fullShare (k0_pay5 x0 s7)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H4]
  · iexists _; isplitr
    swap; · iexact H4
    ipureintro
    sl_unfold_words
    rw [View.read_writes_eq_canon _ _ _ (fun y => ⟨_, List.mem_cons.mpr (Or.inl rfl), View.mem_set_unit_zero offZero inb_S1x8192_S1x8192_0_0 y⟩),
      View.canon_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  isplitl [H5]
  · iexists _; isplitr
    swap; · iexact H5
    ipureintro
    sl_unfold_words
    rw [View.read_writes_eq_canon _ _ _ (fun y => ⟨_, List.mem_cons.mpr (Or.inl rfl), View.mem_set_unit_zero offZero inb_S8192x64_S8192x64_0_0 y⟩),
      View.canon_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  isplitl [H6]
  · iexists _; isplitr
    swap; · iexact H6
    ipureintro
    sl_unfold_words
    rw [View.read_writes_eq_canon _ _ _ (View.cover_of_tiled _ S8192x64.size (by rfl)), View.canon_unit_zero offZero]
    simp only [View.readAt_eq_ld, View.ld_unit_zero (S := S256x8192) offZero, View.ld_unit_zero (S := S256x64) offZero,
      View.ld_unit_zero (S := S8192x64) offZero]
  iexists _; isplitr
  swap; · iexact H7
  ipureintro
  sl_unfold_words
  rw [View.read_writes_eq_canon _ _ _ (View.cover_of_tiled _ S1x8192.size (by rfl)), View.canon_unit_zero offZero]
  simp only [View.readAt_eq_ld, View.ld_unit_zero (S := S256x8192) offZero, View.ld_unit_zero (S := S1x8192) offZero]

end Cert.Kernel.Hand

end
-- ==== Proof.BRegion0.lean ====
/-
  The first sweep as one region of the program. At each of its 64 points the region is handed a block of 256 rows of the
  incidence matrix and the block's features; it leaves the block's 256 node degrees, written back at every point, and it
  keeps two running sums between points, which it copies at the last point into two result buffers written back only
  then. The invariant between points says what the two running sums hold: after point `n`, the contributions of blocks
  `0 … n` added onto zero in order. At the first point the running sums hold anything; at the points before the last the
  two late result buffers are handed back exactly as they were found.
-/
import proofs.«101532_j26061861552225_1_alg».proof.Proof.BStage1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The incidence block and the feature block of point number `n` (past the grid's end, which nothing reads, the first block again). -/
def hblk (c : Dev nD) (n : ℕ) : Vec F S256x8192 .f32 := if h : n < cfg0.N then iblk0 V c 0 ⟨n, h⟩ else iblk0 V c 0 ⟨0, by decide⟩
def fblk (c : Dev nD) (n : ℕ) : Vec F S256x64 .f32 := if h : n < cfg0.N then iblk0 V c 1 ⟨n, h⟩ else iblk0 V c 1 ⟨0, by decide⟩
theorem hblk_val (c : Dev nD) (t : Fin cfg0.N) : hblk V c t.val = iblk0 V c 0 t := by unfold hblk; rw [dif_pos t.isLt]
theorem fblk_val (c : Dev nD) (t : Fin cfg0.N) : fblk V c t.val = iblk0 V c 1 t := by unfold fblk; rw [dif_pos t.isLt]

/-- The running sums at a point's number: at the first point from zero, afterwards from the point before. -/
theorem accX_at_zero (hb : ℕ → Vec F S256x8192 .f32) (fb : ℕ → Vec F S256x64 .f32) (n : ℕ) (h : n = 0) :
    accX hb fb n = k0_pay4 (hb n) (fb n) (k0_pay2 (F := F)) := by subst h; rfl
theorem accE_at_zero (hb : ℕ → Vec F S256x8192 .f32) (n : ℕ) (h : n = 0) :
    accE hb n = k0_pay5 (hb n) (k0_pay3 (F := F)) := by subst h; rfl
theorem accX_at_pos (hb : ℕ → Vec F S256x8192 .f32) (fb : ℕ → Vec F S256x64 .f32) (n : ℕ) (h : n ≠ 0) :
    accX hb fb n = k0_pay4 (hb n) (fb n) (accX hb fb (n - 1)) := by
  cases n with
  | zero => exact absurd rfl h
  | succ n => rfl
theorem accE_at_pos (hb : ℕ → Vec F S256x8192 .f32) (n : ℕ) (h : n ≠ 0) :
    accE hb n = k0_pay5 (hb n) (accE hb (n - 1)) := by
  cases n with
  | zero => exact absurd rfl h
  | succ n => rfl

/-! ## The invariant between points -/

/-- The two buffers the body keeps between points. -/
abbrev scX : Memref sig .tc .vmem S8192x64 .f32 := Memref.whole cc0_scratch0
abbrev scE : Memref sig .tc .vmem S1x8192 .f32 := Memref.whole cc0_scratch1

/-- The core's other scoped buffers (the second sweep's), each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands a region of this class, with the two kept buffers named. -/
theorem PhiA0_eq (c : Dev nD) :
    (Pipeline.ΦA spec0 c : sProp 𝕄)
      = iprop(iprop((∃ d, owns (c : Thread nD τ) scX fullShare d) ∗ (∃ d, owns (c : Thread nD τ) scE fullShare d) ∗ otherScoped c) ∗ (∃ r, prngReg c r)) := by
  unfold Pipeline.ΦA otherScoped; rw [scopedRest0_eq]; simp only [scX, scE, owns_whole]; try rfl

/-- Before point number `n`: at the first point what the launch hands the region; afterwards the two kept buffers at the
    running sums after point `n - 1`, the other scoped buffers at anything, the generator register at some state. -/
def PhiS (c : Dev nD) : ℕ → sProp 𝕄
  | 0 => Pipeline.ΦA spec0 c
  | n + 1 => iprop(iprop(owns (c : Thread nD τ) scX fullShare (accX (hblk V c) (fblk V c) n) ∗ owns (c : Thread nD τ) scE fullShare (accE (hblk V c) n) ∗ otherScoped c) ∗ (∃ r, prngReg c r))

theorem PhiS_zero (c : Dev nD) (n : ℕ) (h : n = 0) : PhiS V c n = Pipeline.ΦA spec0 c := by subst h; rfl
theorem PhiS_succ (c : Dev nD) (n : ℕ) :
    PhiS V c (n + 1) = iprop(iprop(owns (c : Thread nD τ) scX fullShare (accX (hblk V c) (fblk V c) n) ∗ owns (c : Thread nD τ) scE fullShare (accE (hblk V c) n) ∗ otherScoped c) ∗ (∃ r, prngReg c r)) := rfl
theorem PhiS_pos (c : Dev nD) (n : ℕ) (h : n ≠ 0) :
    PhiS V c n = iprop(iprop(owns (c : Thread nD τ) scX fullShare (accX (hblk V c) (fblk V c) (n - 1)) ∗ owns (c : Thread nD τ) scE fullShare (accE (hblk V c) (n - 1)) ∗ otherScoped c) ∗ (∃ r, prngReg c r)) := by
  cases n with
  | zero => exact absurd rfl h
  | succ n => rfl

/-! ## The region's proof data -/

/-- The arrays as the region finds them; after the body at point `t` each input's buffer at its block, the degree buffer
    at the block's row sums, and the two late result buffers at the running sums (which is what they hold at the one
    point that writes them back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t)
    | ⟨3, _⟩ => accE (hblk V c) t.val
    | ⟨4, _⟩ => accX (hblk V c) (fblk V c) t.val
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) := by dsimp only [dat0]
theorem after0_3 (c : Dev nD) (t : Fin cfg0.N) : (dat0 V c).after 3 t = accE (hblk V c) t.val := by dsimp only [dat0]
theorem after0_4 (c : Dev nD) (t : Fin cfg0.N) : (dat0 V c).after 4 t = accX (hblk V c) (fblk V c) t.val := by dsimp only [dat0]

theorem Phi_castSucc (c : Dev nD) (t : Fin cfg0.N) : (dat0 V c).Φ t.castSucc = PhiS V c t.val := by
  dsimp only [dat0]; simp only [Fin.coe_castSucc]
theorem Phi_succ (c : Dev nD) (t : Fin cfg0.N) : (dat0 V c).Φ t.succ = PhiS V c (t.val + 1) := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the body stores into a window, point by point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last point the body stores nothing into the two late result buffers, and they are not written back. -/
theorem idle0_3 : ∀ t : Fin cfg0.N, ¬condLast (grid0.coords t) → cfg0.idle 3 (grid0.coords t) = true := by decide +kernel
theorem idle0_4 : ∀ t : Fin cfg0.N, ¬condLast (grid0.coords t) → cfg0.idle 4 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
/-- At the last point it stores into both. -/
theorem live0_3 : ∀ t : Fin cfg0.N, condLast (grid0.coords t) → cfg0.idle 3 (grid0.coords t) = false := by decide +kernel
theorem live0_4 : ∀ t : Fin cfg0.N, condLast (grid0.coords t) → cfg0.idle 4 (grid0.coords t) = false := by decide +kernel

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: each window's buffer at the stated contents, or, where the body stores nothing into it and it is
    not written back, as it was found. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point, by the point's situation (first, last, or neither): the inputs' buffers hold their blocks; the
    invariant hands the body the two kept buffers at the running sums after the point before (at anything at the first
    point) and takes them back at the running sums after this point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_succ, Phi_castSucc, PhiS_succ]
  have hN : t.val < 64 := lt_of_lt_of_eq t.isLt (show cfg0.N = 64 from N_0)
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  by_cases hz : t.val = 0
  · -- the first point
    have hc0 : condFirst (grid0.coords t) := (hcondFirst t).mpr hz
    have hc1 : ¬condLast (grid0.coords t) := fun h => by have := (hcondLast t).mp h; omega
    rw [Dat.leavesExact_idle (dat0 V c) 3 t (idle0_3 t hc1) (noFlush0_3 t hc1),
      Dat.leavesExact_idle (dat0 V c) 4 t (idle0_4 t hc1) (noFlush0_4 t hc1)]
    rw [PhiS_zero V c _ hz, PhiA0_eq, accX_at_zero _ _ _ hz, accE_at_zero _ _ hz, hblk_val, fblk_val]
    iintro ⟨⟨⟨H6, H7, Hr⟩, Hg⟩, Ho, ⟨%d0, H0⟩, ⟨%d1, H1⟩, ⟨%d2, H2⟩, H3, H4⟩
    iapply (stage1_first c Set.univ (grid0.coords t) hc0 hc1 _ _ _ _ _ _ _ _ _ _ _ _ _ _ (iblk0 V c 0 t) (iblk0 V c 1 t) _)
    isplitl [H0]; · iexact H0
    isplitl [H1]; · iexact H1
    isplitl [H2]; · iexists _; iexact H2
    isplitl [H6]; · iexact H6
    isplitl [H7]; · iexact H7
    iintro ⟨H0, H1, H2, H6, H7⟩
    isplitl [H6 H7 Hr Hg]
    · isplitr [Hg]
      · isplitl [H6]; · iexact H6
        isplitl [H7]; · iexact H7
        iexact Hr
      iexact Hg
    isplitl [Ho]; · iexact Ho
    isplitl [H0]; · iexact H0
    isplitl [H1]; · iexact H1
    isplitl [H2]; · iexact H2
    isplitl [H3]; · iexact H3
    iexact H4
  · rw [PhiS_pos V c _ hz, accX_at_pos _ _ _ hz, accE_at_pos _ _ hz, hblk_val, fblk_val]
    have hc0 : ¬condFirst (grid0.coords t) := fun h => hz ((hcondFirst t).mp h)
    by_cases hl : t.val = 63
    · -- the last point
      have hc1 : condLast (grid0.coords t) := (hcondLast t).mpr hl
      rw [show (dat0 V c).leavesExact 3 t = owns (c : Thread nD τ) (st0_3 t) fullShare ((dat0 V c).after 3 t) from by
        unfold Dat.leavesExact; rw [live0_3 t hc1], after0_3, accE_at_pos _ _ hz, hblk_val]
      rw [show (dat0 V c).leavesExact 4 t = owns (c : Thread nD τ) (st0_4 t) fullShare ((dat0 V c).after 4 t) from by
        unfold Dat.leavesExact; rw [live0_4 t hc1], after0_4, accX_at_pos _ _ _ hz, hblk_val, fblk_val]
      iintro ⟨⟨⟨H6, H7, Hr⟩, Hg⟩, Ho, ⟨%d0, H0⟩, ⟨%d1, H1⟩, ⟨%d2, H2⟩, ⟨%d3, H3⟩, ⟨%d4, H4⟩⟩
      iapply (stage1_last c Set.univ (grid0.coords t) hc0 hc1 _ _ _ _ _ _ _ _ _ _ _ _ _ _ (iblk0 V c 0 t) (iblk0 V c 1 t)
        (accX (hblk V c) (fblk V c) (t.val - 1)) (accE (hblk V c) (t.val - 1)) _)
      isplitl [H0]; · iexact H0
      isplitl [H1]; · iexact H1
      isplitl [H2]; · iexists _; iexact H2
      isplitl [H3]; · iexists _; iexact H3
      isplitl [H4]; · iexists _; iexact H4
      isplitl [H6]; · iexact H6
      isplitl [H7]; · iexact H7
      iintro ⟨H0, H1, H2, H3, H4, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      isplitl [H2]; · iexact H2
      isplitl [H3]; · iexact H3
      iexact H4
    · -- a point that is neither
      have hc1 : ¬condLast (grid0.coords t) := fun h => hl ((hcondLast t).mp h)
      rw [Dat.leavesExact_idle (dat0 V c) 3 t (idle0_3 t hc1) (noFlush0_3 t hc1),
        Dat.leavesExact_idle (dat0 V c) 4 t (idle0_4 t hc1) (noFlush0_4 t hc1)]
      iintro ⟨⟨⟨H6, H7, Hr⟩, Hg⟩, Ho, ⟨%d0, H0⟩, ⟨%d1, H1⟩, ⟨%d2, H2⟩, H3, H4⟩
      iapply (stage1_mid c Set.univ (grid0.coords t) hc0 hc1 _ _ _ _ _ _ _ _ _ _ _ _ _ _ (iblk0 V c 0 t) (iblk0 V c 1 t)
        (accX (hblk V c) (fblk V c) (t.val - 1)) (accE (hblk V c) (t.val - 1)) _)
      isplitl [H0]; · iexact H0
      isplitl [H1]; · iexact H1
      isplitl [H2]; · iexists _; iexact H2
      isplitl [H6]; · iexact H6
      isplitl [H7]; · iexact H7
      iintro ⟨H0, H1, H2, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      isplitl [H2]; · iexact H2
      isplitl [H3]; · iexact H3
      iexact H4

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 from rfl, PhiS_zero V c 0 rfl]

/-- and after the last point the invariant gives it back, the running sums' contents forgotten. -/
theorem hout0 (c : Dev nD) : (dat0 V c).Φ (Fin.last cfg0.N) ⊢ Pipeline.ΦA spec0 c := by
  rw [show (dat0 V c).Φ (Fin.last cfg0.N) = PhiS V c (63 + 1) from rfl, PhiS_succ, PhiA0_eq]
  iintro ⟨⟨H6, H7, Hr⟩, Hg⟩
  isplitl [H6 H7 Hr]
  · isplitl [H6]; · iexists _; iexact H6
    isplitl [H7]; · iexists _; iexact H7
    iexact Hr
  iexact Hg

end Cert.Kernel.Hand

end
-- ==== Proof.BRegion1.lean ====
/-
  The second sweep as one region of the program. At each of its 64 points the region is handed a block of 256 rows of
  the incidence matrix, the whole edge-feature array (brought in once, at the first point, and left in place), and the
  block's 256 node degrees; it leaves the block's 256 rows of the result. What the result block holds is stated as a
  function of the three input blocks; the body runs without fault and leaves the inputs as they were.
-/
import proofs.«101532_j26061861552225_1_alg».proof.Proof.Gen.Kernel.Launch
import proofs.«101532_j26061861552225_1_alg».proof.Proof.Gen.Kernel.Skeleton
import proofs.«101532_j26061861552225_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was brought in there: where it
    was not, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rInc : Rect S256x8192 := Rect.unit (s := S256x8192) ![0, 0] S256x8192.size inb_S256x8192_S256x8192_0_0
abbrev rEdge : Rect S8192x64 := Rect.unit (s := S8192x64) ![0, 0] S8192x64.size inb_S8192x64_S8192x64_0_0
abbrev rDeg : Rect S256x1 := Rect.unit (s := S256x1) ![0, 0] S256x1.size inb_S256x1_S256x1_0_0
abbrev rOut : Rect S256x64 := Rect.unit (s := S256x64) ![0, 0] S256x64.size inb_S256x64_S256x64_0_0

/-- What the body leaves in the result window's buffer, from the three input blocks: its one store. -/
def out1_3 (x0 : Vec F S256x8192 .f32) (x1 : Vec F S8192x64 .f32) (x2 : Vec F S256x1 .f32) : Vec F S256x64 .f32 :=
  View.canon [⟨rOut, k1_pay1 (View.ld x0 rInc) (View.ld x1 rEdge) (View.ld x2 rDeg)⟩]

/-- The store fills the buffer. -/
theorem cover1_3 (p0 : Vec F S256x64 .f32) (y : S256x64.Idx) :
    ∃ pc ∈ ([⟨rOut, p0⟩] : List (View.Piece (Elt F) S256x64 .f32)), y ∈ pc.1.set :=
  View.cover_of_tiled [⟨rOut, p0⟩] S256x64.size (by rfl) y

/-! ## The body's triple -/

set_option maxHeartbeats 1000000 in
/-- The body on whole buffers, the inputs' at contents `x0`, `x1`, `x2` and the result's at anything, runs to its end
    with the inputs' as they were and the result's at `out1_3` of them. -/
theorem sound_kernel1 (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x1 .f32) (harg3 : arg3.IsWhole) (arg4 : Memref sig .tc .vmem S256x64 .f32) (harg4 : arg4.IsWhole)
    (x0 : Vec F S256x8192 .f32) (x1 : Vec F S8192x64 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__stage2_kernel i arg1 harg1 arg2 harg2 arg3 harg3 arg4 harg4) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the result's at
    `out1_3` of the input blocks; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The whole program as a run. Its main function is three items: the first sweep (a region), three host operations that
  scale the gathered edge features by the edge degrees, and the second sweep (a region). Between items every unscoped
  buffer holds named contents: the launch memory; then the first region's three result arrays at what its write-backs
  leave; then the host operations' results; then the second region's result array at what its write-backs leave. Every
  execution terminates without fault, and at the end the result buffer holds the last of these and the two argument
  arrays hold what they were launched with, since no item writes them.
-/
import proofs.«101532_j26061861552225_1_alg».proof.Proof.BRegion0
import proofs.«101532_j26061861552225_1_alg».proof.Proof.BRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch: what the first region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations: what the second region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: a region only reads them and no host operation writes them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The result buffer at the end holds what the second region's write-backs leave in its result window's array. -/
theorem W3_main_v4 (c : Dev nD) : W3 m ρ c (Proc.devRef .tc main_v4) = (dat1 (V2 m ρ) c).arrAt 3 cfg1.N :=
  W3_arr m ρ c 3

/-! ## The proof-data family and what rides beside the buffers -/

abbrev admH : (p : Fin 2) → (pcfgs (F := F) p).Adm := fun p => (cfgs p).toPCfg_adm
/-- Each region's proof data at its own entry contents. -/
def pdat : (p : Fin 2) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
abbrev 𝒱H : Variants := Variants.none
abbrev LH : GSem nD τ sig → Finset Unit := fun _ => ∅
abbrev lvH : GSem nD τ sig → Unit → ℕ := fun _ _ => 0
/-- Beside the buffers: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostFresh : (hostOps1 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TlastH (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first sweep over the thread state: entered with every unscoped buffer at the launch contents, left with them at
    the contents after the region. -/
def reg0H : Pipeline.RegionSeg (pcfgs (F := F)) admH (pdat m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdat m ρ) launch0.win launch0.arr_whole c
      ((pdat m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdat m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdat m ρ) ((pdat m ρ 0 c).share_full fun _ => rfl)
      (V0 m ρ c) (V1 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second sweep over the thread state: entered with every unscoped buffer at the contents after the host operations,
    left with them at the final contents. -/
def reg1H : Pipeline.RegionSeg (pcfgs (F := F)) admH (pdat m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(TlastH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdat m ρ) launch1.win launch1.arr_whole c
      ((pdat m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdat m ρ) ((pdat m ρ 1 c).share_full fun _ => rfl)
      (V2 m ρ c) (V3 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segsH : List (Pipeline.Seg (pcfgs (F := F)) admH (pdat m ρ) () defs₀ 𝒱H LH lvH) :=
  [ .region (reg0H m ρ),
    .host (hsegH hostOps1 hostOps1_sub hostFresh (W1 m ρ)),
    .region (reg1H m ρ) ]
theorem main_runH (c : Dev nD) : main (F := F) c = Pipeline.Seg.run (segsH m ρ) := (main_chain c).trans (by chain_rfl)

set_option backward.isDefEq.respectTransparency.types false in
/-- From any memory with zero counters every weakly fair execution of the main function terminates, nothing faulting, and
    every final state has the result buffer at the second region's written-back array and the two arguments as launched. -/
theorem run_main : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admH (pdat m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TlastH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_ucH main_v4 (by decide))).trans (W3_main_v4 m ρ c),
       (h c _ (mem_ucH main_arg0 (by decide))).trans (W3_main_arg0 m ρ c),
       (h c _ (mem_ucH main_arg1 (by decide))).trans (W3_main_arg1 m ρ c)⟩)

/-- The frame: the same run, with only the arguments read at the end. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.IAcc.lean ====
/-
  The two running sums of the first sweep. The sweep visits the 64 row blocks of the incidence matrix in order. At each
  block it adds, into one buffer, the block's contribution to the product of the transposed incidence matrix with the
  degree-scaled features, and, into another, the block's column sums. Both buffers are cleared at the first block, so
  after block `n` they hold the contributions of blocks `0 … n` added onto zero, in visiting order.
-/
import proofs.«101532_j26061861552225_1_alg».proof.Proof.Gen.KernelIdeal.Skeleton

noncomputable section

namespace Cert.KernelIdeal.Hand

open Idealize.ShloMosaic Cert.KernelIdeal Cert.KernelIdeal.Gen

variable {F : FTy → Type} [FloatOps F]

/-- The edge-by-feature running sum after block `n`, from the incidence blocks `hb` and the feature blocks `fb`:
    block `0`'s contribution added onto the cleared buffer, then one more block's contribution at each step. -/
def accX (hb : ℕ → Vec F S256x8192 .f32) (fb : ℕ → Vec F S256x64 .f32) : ℕ → Vec F S8192x64 .f32
  | 0 => k0_pay4 (hb 0) (fb 0) (k0_pay2 (F := F))
  | n + 1 => k0_pay4 (hb (n + 1)) (fb (n + 1)) (accX hb fb n)

/-- The running column sums after block `n`: block `0`'s column sums added onto the cleared buffer, then one more
    block's at each step. -/
def accE (hb : ℕ → Vec F S256x8192 .f32) : ℕ → Vec F S1x8192 .f32
  | 0 => k0_pay5 (hb 0) (k0_pay3 (F := F))
  | n + 1 => k0_pay5 (hb (n + 1)) (accE hb n)

theorem accX_zero (hb : ℕ → Vec F S256x8192 .f32) (fb : ℕ → Vec F S256x64 .f32) :
    accX hb fb 0 = k0_pay4 (hb 0) (fb 0) (k0_pay2 (F := F)) := rfl
theorem accX_succ (hb : ℕ → Vec F S256x8192 .f32) (fb : ℕ → Vec F S256x64 .f32) (n : ℕ) :
    accX hb fb (n + 1) = k0_pay4 (hb (n + 1)) (fb (n + 1)) (accX hb fb n) := rfl
theorem accE_zero (hb : ℕ → Vec F S256x8192 .f32) : accE hb 0 = k0_pay5 (hb 0) (k0_pay3 (F := F)) := rfl
theorem accE_succ (hb : ℕ → Vec F S256x8192 .f32) (n : ℕ) : accE hb (n + 1) = k0_pay5 (hb (n + 1)) (accE hb n) := rfl

end Cert.KernelIdeal.Hand

end
-- ==== Proof.IStage1.lean ====
/-
  The first sweep's body at one grid point, in its three situations. At every point the body stores the block's row sums
  and adds the block's contributions onto the two running sums it keeps between points. At the first point it clears the
  running sums before adding; at the last point it also copies the finished sums into the two result buffers that are
  written back only then. At the other points those two result buffers are not touched at all.
-/
import proofs.«101532_j26061861552225_1_alg».proof.Proof.IAcc
import proofs.«101532_j26061861552225_1_alg».proof.Proof.Gen.KernelIdeal.Launch
import proofs.«101532_j26061861552225_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions the body branches on, decided over the grid -/

/-- "This is the first point": the body's test of the grid coordinate against zero. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- "This is the last point": the body's test of the grid coordinate against 63. -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

/-- Every access of the body is at offset zero and of the buffer's full extent. -/
theorem offZero : (![0, 0] : Fin 2 → Nat) = fun _ => 0 := funext fun a => by fin_cases a <;> rfl

/-! ## A point that is neither the first nor the last -/

set_option maxHeartbeats 2000000 in
/-- The running sums are at `s6`, `s7`; the body leaves the block's row sums in the degree buffer and the running sums
    with the block's contributions added. -/
theorem stage1_mid (c : Dev nD) (E : Set ℕ) (i : grid0.Coords) (hc0 : ¬condFirst i) (hc1 : ¬condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (s6 : Vec F S8192x64 .f32) (s7 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1
            ∗ owns (c : Thread nD τ) arg3 fullShare (k0_pay1 x0)
            ∗ owns (c : Thread nD τ) arg6 fullShare (k0_pay4 x0 x1 s6) ∗ owns (c : Thread nD τ) arg7 fullShare (k0_pay5 x0 s7)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H6]
  · iexists _; isplitr
    swap; · iexact H6
    ipureintro
    rw [View.read_writes_eq_canon _ _ _ (View.cover_of_tiled _ S8192x64.size (by rfl)), View.canon_unit_zero offZero]
    simp only [View.readAt_eq_ld, View.ld_unit_zero (S := S256x8192) offZero, View.ld_unit_zero (S := S256x64) offZero,
      View.ld_unit_zero (S := S8192x64) offZero]
  iexists _; isplitr
  swap; · iexact H7
  ipureintro
  rw [View.read_writes_eq_canon _ _ _ (View.cover_of_tiled _ S1x8192.size (by rfl)), View.canon_unit_zero offZero]
  simp only [View.readAt_eq_ld, View.ld_unit_zero (S := S256x8192) offZero, View.ld_unit_zero (S := S1x8192) offZero]

/-! ## The first point -/

set_option maxHeartbeats 2000000 in
/-- The running sums hold anything; the body clears them and leaves the block's contributions added onto zero. -/
theorem stage1_first (c : Dev nD) (E : Set ℕ) (i : grid0.Coords) (hc0 : condFirst i) (hc1 : ¬condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k0_pay1 x0)
            ∗ owns (c : Thread nD τ) arg6 fullShare (k0_pay4 x0 x1 (k0_pay2 (F := F))) ∗ owns (c : Thread nD τ) arg7 fullShare (k0_pay5 x0 (k0_pay3 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H6]
  · iexists _; isplitr
    swap; · iexact H6
    ipureintro
    sl_unfold_words
    rw [View.read_writes_eq_canon _ _ _ (fun y => ⟨_, List.mem_cons.mpr (Or.inl rfl), View.mem_set_unit_zero offZero inb_S8192x64_S8192x64_0_0 y⟩),
      View.canon_cons_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  iexists _; isplitr
  swap; · iexact H7
  ipureintro
  sl_unfold_words
  rw [View.read_writes_eq_canon _ _ _ (fun y => ⟨_, List.mem_cons.mpr (Or.inl rfl), View.mem_set_unit_zero offZero inb_S1x8192_S1x8192_0_0 y⟩),
    View.canon_cons_unit_zero offZero, View.readCov_unit_zero _ offZero]
  simp only [View.readAt_eq_ld, View.ld_unit_zero (S := S256x8192) offZero, View.ld_unit_zero (S := S256x64) offZero, View.ld_unit_zero (S := S8192x64) offZero, View.ld_unit_zero (S := S1x8192) offZero]

/-! ## The last point -/

set_option maxHeartbeats 2000000 in
/-- As at a middle point, and the two result buffers (holding anything) are left at the finished running sums. -/
theorem stage1_last (c : Dev nD) (E : Set ℕ) (i : grid0.Coords) (hc0 : ¬condFirst i) (hc1 : condLast i)
    (arg1 : Memref sig .tc .vmem S256x8192 .f32) (harg1 : arg1.IsWhole) (arg2 : Memref sig .tc .vmem S256x64 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S8192x64 .f32) (harg5 : arg5.IsWhole) (arg6 : Memref sig .tc .vmem S8192x64 .f32) (harg6 : arg6.IsWhole)
    (arg7 : Memref sig .tc .vmem S1x8192 .f32) (harg7 : arg7.IsWhole)
    (x0 : Vec F S256x8192 .f32) (x1 : Vec F S256x64 .f32) (s6 : Vec F S8192x64 .f32) (s7 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1
            ∗ owns (c : Thread nD τ) arg3 fullShare (k0_pay1 x0)
            ∗ owns (c : Thread nD τ) arg4 fullShare (k0_pay5 x0 s7) ∗ owns (c : Thread nD τ) arg5 fullShare (k0_pay4 x0 x1 s6)
            ∗ owns (c : Thread nD τ) arg6 fullShare (k0_pay4 x0 x1 s6) ∗ owns (c : Thread nD τ) arg7 fullShare (k0_pay5 x0 s7)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (View.cover_of_tiled _ S256x1.size (by rfl)), View.canon_unit_zero offZero]
    simp only [View.readAt_eq_ld, View.ld_unit_zero (S := S256x8192) offZero]
  isplitl [H4]
  · iexists _; isplitr
    swap; · iexact H4
    ipureintro
    sl_unfold_words
    rw [View.read_writes_eq_canon _ _ _ (fun y => ⟨_, List.mem_cons.mpr (Or.inl rfl), View.mem_set_unit_zero offZero inb_S1x8192_S1x8192_0_0 y⟩),
      View.canon_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  isplitl [H5]
  · iexists _; isplitr
    swap; · iexact H5
    ipureintro
    sl_unfold_words
    rw [View.read_writes_eq_canon _ _ _ (fun y => ⟨_, List.mem_cons.mpr (Or.inl rfl), View.mem_set_unit_zero offZero inb_S8192x64_S8192x64_0_0 y⟩),
      View.canon_unit_zero offZero, View.readCov_unit_zero _ offZero]
    simp only [View.readAt_eq_ld, View.ld_unit_zero (S := S256x8192) offZero, View.ld_unit_zero (S := S256x64) offZero, View.ld_unit_zero (S := S8192x64) offZero, View.ld_unit_zero (S := S1x8192) offZero]
  isplitl [H6]
  · iexists _; isplitr
    swap; · iexact H6
    ipureintro
    sl_unfold_words
    rw [View.read_writes_eq_canon _ _ _ (View.cover_of_tiled _ S8192x64.size (by rfl)), View.canon_unit_zero offZero]
    simp only [View.readAt_eq_ld, View.ld_unit_zero (S := S256x8192) offZero, View.ld_unit_zero (S := S256x64) offZero,
      View.ld_unit_zero (S := S8192x64) offZero]
  iexists _; isplitr
  swap; · iexact H7
  ipureintro
  sl_unfold_words
  rw [View.read_writes_eq_canon _ _ _ (View.cover_of_tiled _ S1x8192.size (by rfl)), View.canon_unit_zero offZero]
  simp only [View.readAt_eq_ld, View.ld_unit_zero (S := S256x8192) offZero, View.ld_unit_zero (S := S1x8192) offZero]

end Cert.KernelIdeal.Hand

end
-- ==== Proof.IRegion0.lean ====
/-
  The first sweep as one region of the program. At each of its 64 points the region is handed a block of 256 rows of the
  incidence matrix and the block's features; it leaves the block's 256 node degrees, written back at every point, and it
  keeps two running sums between points, which it copies at the last point into two result buffers written back only
  then. The invariant between points says what the two running sums hold: after point `n`, the contributions of blocks
  `0 … n` added onto zero in order. At the first point the running sums hold anything; at the points before the last the
  two late result buffers are handed back exactly as they were found.
-/
import proofs.«101532_j26061861552225_1_alg».proof.Proof.IStage1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The incidence block and the feature block of point number `n` (past the grid's end, which nothing reads, the first block again). -/
def hblk (c : Dev nD) (n : ℕ) : Vec F S256x8192 .f32 := if h : n < cfg0.N then iblk0 V c 0 ⟨n, h⟩ else iblk0 V c 0 ⟨0, by decide⟩
def fblk (c : Dev nD) (n : ℕ) : Vec F S256x64 .f32 := if h : n < cfg0.N then iblk0 V c 1 ⟨n, h⟩ else iblk0 V c 1 ⟨0, by decide⟩
theorem hblk_val (c : Dev nD) (t : Fin cfg0.N) : hblk V c t.val = iblk0 V c 0 t := by unfold hblk; rw [dif_pos t.isLt]
theorem fblk_val (c : Dev nD) (t : Fin cfg0.N) : fblk V c t.val = iblk0 V c 1 t := by unfold fblk; rw [dif_pos t.isLt]

/-- The running sums at a point's number: at the first point from zero, afterwards from the point before. -/
theorem accX_at_zero (hb : ℕ → Vec F S256x8192 .f32) (fb : ℕ → Vec F S256x64 .f32) (n : ℕ) (h : n = 0) :
    accX hb fb n = k0_pay4 (hb n) (fb n) (k0_pay2 (F := F)) := by subst h; rfl
theorem accE_at_zero (hb : ℕ → Vec F S256x8192 .f32) (n : ℕ) (h : n = 0) :
    accE hb n = k0_pay5 (hb n) (k0_pay3 (F := F)) := by subst h; rfl
theorem accX_at_pos (hb : ℕ → Vec F S256x8192 .f32) (fb : ℕ → Vec F S256x64 .f32) (n : ℕ) (h : n ≠ 0) :
    accX hb fb n = k0_pay4 (hb n) (fb n) (accX hb fb (n - 1)) := by
  cases n with
  | zero => exact absurd rfl h
  | succ n => rfl
theorem accE_at_pos (hb : ℕ → Vec F S256x8192 .f32) (n : ℕ) (h : n ≠ 0) :
    accE hb n = k0_pay5 (hb n) (accE hb (n - 1)) := by
  cases n with
  | zero => exact absurd rfl h
  | succ n => rfl

/-! ## The invariant between points -/

/-- The two buffers the body keeps between points. -/
abbrev scX : Memref sig .tc .vmem S8192x64 .f32 := Memref.whole cc0_scratch0
abbrev scE : Memref sig .tc .vmem S1x8192 .f32 := Memref.whole cc0_scratch1

/-- The core's other scoped buffers (the second sweep's), each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands a region of this class, with the two kept buffers named. -/
theorem PhiA0_eq (c : Dev nD) :
    (Pipeline.ΦA spec0 c : sProp 𝕄)
      = iprop(iprop((∃ d, owns (c : Thread nD τ) scX fullShare d) ∗ (∃ d, owns (c : Thread nD τ) scE fullShare d) ∗ otherScoped c) ∗ (∃ r, prngReg c r)) := by
  unfold Pipeline.ΦA otherScoped; rw [scopedRest0_eq]; simp only [scX, scE, owns_whole]; try rfl

/-- Before point number `n`: at the first point what the launch hands the region; afterwards the two kept buffers at the
    running sums after point `n - 1`, the other scoped buffers at anything, the generator register at some state. -/
def PhiS (c : Dev nD) : ℕ → sProp 𝕄
  | 0 => Pipeline.ΦA spec0 c
  | n + 1 => iprop(iprop(owns (c : Thread nD τ) scX fullShare (accX (hblk V c) (fblk V c) n) ∗ owns (c : Thread nD τ) scE fullShare (accE (hblk V c) n) ∗ otherScoped c) ∗ (∃ r, prngReg c r))

theorem PhiS_zero (c : Dev nD) (n : ℕ) (h : n = 0) : PhiS V c n = Pipeline.ΦA spec0 c := by subst h; rfl
theorem PhiS_succ (c : Dev nD) (n : ℕ) :
    PhiS V c (n + 1) = iprop(iprop(owns (c : Thread nD τ) scX fullShare (accX (hblk V c) (fblk V c) n) ∗ owns (c : Thread nD τ) scE fullShare (accE (hblk V c) n) ∗ otherScoped c) ∗ (∃ r, prngReg c r)) := rfl
theorem PhiS_pos (c : Dev nD) (n : ℕ) (h : n ≠ 0) :
    PhiS V c n = iprop(iprop(owns (c : Thread nD τ) scX fullShare (accX (hblk V c) (fblk V c) (n - 1)) ∗ owns (c : Thread nD τ) scE fullShare (accE (hblk V c) (n - 1)) ∗ otherScoped c) ∗ (∃ r, prngReg c r)) := by
  cases n with
  | zero => exact absurd rfl h
  | succ n => rfl

/-! ## The region's proof data -/

/-- The arrays as the region finds them; after the body at point `t` each input's buffer at its block, the degree buffer
    at the block's row sums, and the two late result buffers at the running sums (which is what they hold at the one
    point that writes them back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t)
    | ⟨3, _⟩ => accE (hblk V c) t.val
    | ⟨4, _⟩ => accX (hblk V c) (fblk V c) t.val
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) := by dsimp only [dat0]
theorem after0_3 (c : Dev nD) (t : Fin cfg0.N) : (dat0 V c).after 3 t = accE (hblk V c) t.val := by dsimp only [dat0]
theorem after0_4 (c : Dev nD) (t : Fin cfg0.N) : (dat0 V c).after 4 t = accX (hblk V c) (fblk V c) t.val := by dsimp only [dat0]

theorem Phi_castSucc (c : Dev nD) (t : Fin cfg0.N) : (dat0 V c).Φ t.castSucc = PhiS V c t.val := by
  dsimp only [dat0]; simp only [Fin.coe_castSucc]
theorem Phi_succ (c : Dev nD) (t : Fin cfg0.N) : (dat0 V c).Φ t.succ = PhiS V c (t.val + 1) := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the body stores into a window, point by point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last point the body stores nothing into the two late result buffers, and they are not written back. -/
theorem idle0_3 : ∀ t : Fin cfg0.N, ¬condLast (grid0.coords t) → cfg0.idle 3 (grid0.coords t) = true := by decide +kernel
theorem idle0_4 : ∀ t : Fin cfg0.N, ¬condLast (grid0.coords t) → cfg0.idle 4 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
/-- At the last point it stores into both. -/
theorem live0_3 : ∀ t : Fin cfg0.N, condLast (grid0.coords t) → cfg0.idle 3 (grid0.coords t) = false := by decide +kernel
theorem live0_4 : ∀ t : Fin cfg0.N, condLast (grid0.coords t) → cfg0.idle 4 (grid0.coords t) = false := by decide +kernel

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: each window's buffer at the stated contents, or, where the body stores nothing into it and it is
    not written back, as it was found. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point, by the point's situation (first, last, or neither): the inputs' buffers hold their blocks; the
    invariant hands the body the two kept buffers at the running sums after the point before (at anything at the first
    point) and takes them back at the running sums after this point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_succ, Phi_castSucc, PhiS_succ]
  have hN : t.val < 64 := lt_of_lt_of_eq t.isLt (show cfg0.N = 64 from N_0)
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  by_cases hz : t.val = 0
  · -- the first point
    have hc0 : condFirst (grid0.coords t) := (hcondFirst t).mpr hz
    have hc1 : ¬condLast (grid0.coords t) := fun h => by have := (hcondLast t).mp h; omega
    rw [Dat.leavesExact_idle (dat0 V c) 3 t (idle0_3 t hc1) (noFlush0_3 t hc1),
      Dat.leavesExact_idle (dat0 V c) 4 t (idle0_4 t hc1) (noFlush0_4 t hc1)]
    rw [PhiS_zero V c _ hz, PhiA0_eq, accX_at_zero _ _ _ hz, accE_at_zero _ _ hz, hblk_val, fblk_val]
    iintro ⟨⟨⟨H6, H7, Hr⟩, Hg⟩, Ho, ⟨%d0, H0⟩, ⟨%d1, H1⟩, ⟨%d2, H2⟩, H3, H4⟩
    iapply (stage1_first c Set.univ (grid0.coords t) hc0 hc1 _ _ _ _ _ _ _ _ _ _ _ _ _ _ (iblk0 V c 0 t) (iblk0 V c 1 t) _)
    isplitl [H0]; · iexact H0
    isplitl [H1]; · iexact H1
    isplitl [H2]; · iexists _; iexact H2
    isplitl [H6]; · iexact H6
    isplitl [H7]; · iexact H7
    iintro ⟨H0, H1, H2, H6, H7⟩
    isplitl [H6 H7 Hr Hg]
    · isplitr [Hg]
      · isplitl [H6]; · iexact H6
        isplitl [H7]; · iexact H7
        iexact Hr
      iexact Hg
    isplitl [Ho]; · iexact Ho
    isplitl [H0]; · iexact H0
    isplitl [H1]; · iexact H1
    isplitl [H2]; · iexact H2
    isplitl [H3]; · iexact H3
    iexact H4
  · rw [PhiS_pos V c _ hz, accX_at_pos _ _ _ hz, accE_at_pos _ _ hz, hblk_val, fblk_val]
    have hc0 : ¬condFirst (grid0.coords t) := fun h => hz ((hcondFirst t).mp h)
    by_cases hl : t.val = 63
    · -- the last point
      have hc1 : condLast (grid0.coords t) := (hcondLast t).mpr hl
      rw [show (dat0 V c).leavesExact 3 t = owns (c : Thread nD τ) (st0_3 t) fullShare ((dat0 V c).after 3 t) from by
        unfold Dat.leavesExact; rw [live0_3 t hc1], after0_3, accE_at_pos _ _ hz, hblk_val]
      rw [show (dat0 V c).leavesExact 4 t = owns (c : Thread nD τ) (st0_4 t) fullShare ((dat0 V c).after 4 t) from by
        unfold Dat.leavesExact; rw [live0_4 t hc1], after0_4, accX_at_pos _ _ _ hz, hblk_val, fblk_val]
      iintro ⟨⟨⟨H6, H7, Hr⟩, Hg⟩, Ho, ⟨%d0, H0⟩, ⟨%d1, H1⟩, ⟨%d2, H2⟩, ⟨%d3, H3⟩, ⟨%d4, H4⟩⟩
      iapply (stage1_last c Set.univ (grid0.coords t) hc0 hc1 _ _ _ _ _ _ _ _ _ _ _ _ _ _ (iblk0 V c 0 t) (iblk0 V c 1 t)
        (accX (hblk V c) (fblk V c) (t.val - 1)) (accE (hblk V c) (t.val - 1)) _)
      isplitl [H0]; · iexact H0
      isplitl [H1]; · iexact H1
      isplitl [H2]; · iexists _; iexact H2
      isplitl [H3]; · iexists _; iexact H3
      isplitl [H4]; · iexists _; iexact H4
      isplitl [H6]; · iexact H6
      isplitl [H7]; · iexact H7
      iintro ⟨H0, H1, H2, H3, H4, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      isplitl [H2]; · iexact H2
      isplitl [H3]; · iexact H3
      iexact H4
    · -- a point that is neither
      have hc1 : ¬condLast (grid0.coords t) := fun h => hl ((hcondLast t).mp h)
      rw [Dat.leavesExact_idle (dat0 V c) 3 t (idle0_3 t hc1) (noFlush0_3 t hc1),
        Dat.leavesExact_idle (dat0 V c) 4 t (idle0_4 t hc1) (noFlush0_4 t hc1)]
      iintro ⟨⟨⟨H6, H7, Hr⟩, Hg⟩, Ho, ⟨%d0, H0⟩, ⟨%d1, H1⟩, ⟨%d2, H2⟩, H3, H4⟩
      iapply (stage1_mid c Set.univ (grid0.coords t) hc0 hc1 _ _ _ _ _ _ _ _ _ _ _ _ _ _ (iblk0 V c 0 t) (iblk0 V c 1 t)
        (accX (hblk V c) (fblk V c) (t.val - 1)) (accE (hblk V c) (t.val - 1)) _)
      isplitl [H0]; · iexact H0
      isplitl [H1]; · iexact H1
      isplitl [H2]; · iexists _; iexact H2
      isplitl [H6]; · iexact H6
      isplitl [H7]; · iexact H7
      iintro ⟨H0, H1, H2, H6, H7⟩
      isplitl [H6 H7 Hr Hg]
      · isplitr [Hg]
        · isplitl [H6]; · iexact H6
          isplitl [H7]; · iexact H7
          iexact Hr
        iexact Hg
      isplitl [Ho]; · iexact Ho
      isplitl [H0]; · iexact H0
      isplitl [H1]; · iexact H1
      isplitl [H2]; · iexact H2
      isplitl [H3]; · iexact H3
      iexact H4

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 from rfl, PhiS_zero V c 0 rfl]

/-- and after the last point the invariant gives it back, the running sums' contents forgotten. -/
theorem hout0 (c : Dev nD) : (dat0 V c).Φ (Fin.last cfg0.N) ⊢ Pipeline.ΦA spec0 c := by
  rw [show (dat0 V c).Φ (Fin.last cfg0.N) = PhiS V c (63 + 1) from rfl, PhiS_succ, PhiA0_eq]
  iintro ⟨⟨H6, H7, Hr⟩, Hg⟩
  isplitl [H6 H7 Hr]
  · isplitl [H6]; · iexists _; iexact H6
    isplitl [H7]; · iexists _; iexact H7
    iexact Hr
  iexact Hg

end Cert.KernelIdeal.Hand

end
-- ==== Proof.IRegion1.lean ====
/-
  The second sweep as one region of the program. At each of its 64 points the region is handed a block of 256 rows of
  the incidence matrix, the whole edge-feature array (brought in once, at the first point, and left in place), and the
  block's 256 node degrees; it leaves the block's 256 rows of the result. What the result block holds is stated as a
  function of the three input blocks; the body runs without fault and leaves the inputs as they were.
-/
import proofs.«101532_j26061861552225_1_alg».proof.Proof.Gen.KernelIdeal.Launch
import proofs.«101532_j26061861552225_1_alg».proof.Proof.Gen.KernelIdeal.Skeleton
import proofs.«101532_j26061861552225_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was brought in there: where it
    was not, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rInc : Rect S256x8192 := Rect.unit (s := S256x8192) ![0, 0] S256x8192.size inb_S256x8192_S256x8192_0_0
abbrev rEdge : Rect S8192x64 := Rect.unit (s := S8192x64) ![0, 0] S8192x64.size inb_S8192x64_S8192x64_0_0
abbrev rDeg : Rect S256x1 := Rect.unit (s := S256x1) ![0, 0] S256x1.size inb_S256x1_S256x1_0_0
abbrev rOut : Rect S256x64 := Rect.unit (s := S256x64) ![0, 0] S256x64.size inb_S256x64_S256x64_0_0

/-- What the body leaves in the result window's buffer, from the three input blocks: its one store. -/
def out1_3 (x0 : Vec F S256x8192 .f32) (x1 : Vec F S8192x64 .f32) (x2 : Vec F S256x1 .f32) : Vec F S256x64 .f32 :=
  View.canon [⟨rOut, k1_pay1 (View.ld x0 rInc) (View.ld x1 rEdge) (View.ld x2 rDeg)⟩]

/-- The store fills the buffer. -/
theorem cover1_3 (p0 : Vec F S256x64 .f32) (y : S256x64.Idx) :
    ∃ pc ∈ ([⟨rOut, p0⟩] : List (View.Piece (Elt F) S256x64 .f32)), y ∈ pc.1.set :=
  View.cover_of_tiled [⟨rOut, p0⟩] S256x64.size (by rfl) y

/-! ## The body's triple -/

set_option maxHeartbeats 1000000 in
/-- The body on whole buffers, the inputs' at contents `x0`, `x1`, `x2` and the result's at anything, runs to its end
    with the inputs' as they were and the result's at `out1_3` of them. -/
theorem sound_kernel1 (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x1 .f32) (harg3 : arg3.IsWhole) (arg4 : Memref sig .tc .vmem S256x64 .f32) (harg4 : arg4.IsWhole)
    (x0 : Vec F S256x8192 .f32) (x1 : Vec F S8192x64 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__stage2_kernel i arg1 harg1 arg2 harg2 arg3 harg3 arg4 harg4) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the result's at
    `out1_3` of the input blocks; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IRun.lean ====
/-
  The whole program as a run. Its main function is three items: the first sweep (a region), three host operations that
  scale the gathered edge features by the edge degrees, and the second sweep (a region). Between items every unscoped
  buffer holds named contents: the launch memory; then the first region's three result arrays at what its write-backs
  leave; then the host operations' results; then the second region's result array at what its write-backs leave. Every
  execution terminates without fault, and at the end the result buffer holds the last of these and the two argument
  arrays hold what they were launched with, since no item writes them.
-/
import proofs.«101532_j26061861552225_1_alg».proof.Proof.IRegion0
import proofs.«101532_j26061861552225_1_alg».proof.Proof.IRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch: what the first region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations: what the second region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: a region only reads them and no host operation writes them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The result buffer at the end holds what the second region's write-backs leave in its result window's array. -/
theorem W3_main_v4 (c : Dev nD) : W3 m ρ c (Proc.devRef .tc main_v4) = (dat1 (V2 m ρ) c).arrAt 3 cfg1.N :=
  W3_arr m ρ c 3

/-! ## The proof-data family and what rides beside the buffers -/

abbrev admH : (p : Fin 2) → (pcfgs (F := F) p).Adm := fun p => (cfgs p).toPCfg_adm
/-- Each region's proof data at its own entry contents. -/
def pdat : (p : Fin 2) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
abbrev 𝒱H : Variants := Variants.none
abbrev LH : GSem nD τ sig → Finset Unit := fun _ => ∅
abbrev lvH : GSem nD τ sig → Unit → ℕ := fun _ _ => 0
/-- Beside the buffers: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostFresh : (hostOps1 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TlastH (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first sweep over the thread state: entered with every unscoped buffer at the launch contents, left with them at
    the contents after the region. -/
def reg0H : Pipeline.RegionSeg (pcfgs (F := F)) admH (pdat m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdat m ρ) launch0.win launch0.arr_whole c
      ((pdat m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdat m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdat m ρ) ((pdat m ρ 0 c).share_full fun _ => rfl)
      (V0 m ρ c) (V1 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second sweep over the thread state: entered with every unscoped buffer at the contents after the host operations,
    left with them at the final contents. -/
def reg1H : Pipeline.RegionSeg (pcfgs (F := F)) admH (pdat m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(TlastH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdat m ρ) launch1.win launch1.arr_whole c
      ((pdat m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdat m ρ) ((pdat m ρ 1 c).share_full fun _ => rfl)
      (V2 m ρ c) (V3 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segsH : List (Pipeline.Seg (pcfgs (F := F)) admH (pdat m ρ) () defs₀ 𝒱H LH lvH) :=
  [ .region (reg0H m ρ),
    .host (hsegH hostOps1 hostOps1_sub hostFresh (W1 m ρ)),
    .region (reg1H m ρ) ]
theorem main_runH (c : Dev nD) : main (F := F) c = Pipeline.Seg.run (segsH m ρ) := (main_chain c).trans (by chain_rfl)

set_option backward.isDefEq.respectTransparency.types false in
/-- From any memory with zero counters every weakly fair execution of the main function terminates, nothing faulting, and
    every final state has the result buffer at the second region's written-back array and the two arguments as launched. -/
theorem run_main : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admH (pdat m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TlastH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_ucH main_v4 (by decide))).trans (W3_main_v4 m ρ c),
       (h c _ (mem_ucH main_arg0 (by decide))).trans (W3_main_arg0 m ρ c),
       (h c _ (mem_ucH main_arg1 (by decide))).trans (W3_main_arg1 m ρ c)⟩)

/-- The frame: the same run, with only the arguments read at the end. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.IPay.lean ====
/-
  The first sweep's arithmetic read entry by entry on the extended reals. A block of 256 rows of the incidence matrix gives
  its row sums (the node degrees of the block), its column sums, and the product of its transpose with the block's
  degree-scaled features; the latter two are added onto running sums that start from zero. A narrowing of the float
  format is the identity on the extended reals, and the matrix unit's product into a zero accumulator is the plain sum
  of products.
-/
import proofs.«101532_j26061861552225_1_alg».proof.Proof.IAcc
import proofs.«101532_j26061861552225_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## A sum along the first axis, read at an index -/

/-- The source index of a sum along axis 0 of a rank-2 array, over column `c` with coordinate `k` on the summed axis, is
    `(k, c)`. -/
private theorem lift_first_ix1 {n a : ℕ} (h : (⟨2, ![n, a]⟩ : Shape).Reduces [0] ⟨1, ![a]⟩) (c : Fin a) (k : Fin n) :
    h.lift (ix1 c) k = ix2 k c := by
  funext e
  apply Fin.ext
  show h.liftVal (ix1 c) k.val e = (ix2 k c e).val
  unfold Shape.Reduces.liftVal
  match e with
  | ⟨0, _⟩ => rfl
  | ⟨1, _⟩ => rfl

/-- At the extended reals a sum along the first axis of an `[n, a]` array, from the neutral zero, is at column `c` the
    sum of the column's `n` entries. -/
private theorem multiReduction_add_first_apply {n a : ℕ} (src : FVec Ideal ⟨2, ![n, a]⟩ .f32)
    (h : (⟨2, ![n, a]⟩ : Shape).Reduces [0] ⟨1, ![a]⟩) (hφ : FKind.Formats .f32)
    (hacc : (0x00000000#32 : BitVec 32) = 0x00000000#32) (c : Fin a) :
    multiReduction .add [0] ⟨1, ![a]⟩ src 0x00000000#32 h hφ hacc (ix1 c) = ∑ k : Fin n, src (ix2 k c) := by
  refine (Ideal.multiReduction_add_single src 0x00000000#32 h hφ hacc (ix1 c)).trans ?_
  exact Finset.sum_congr rfl fun k _ => congrArg src (lift_first_ix1 h c k)

/-! ## The payloads at an index -/

/-- The stored degree column of a block: row `r`'s entry is the sum of the block's row `r`. -/
theorem k0_pay1_apply (x : Vec Ideal S256x8192 .f32) (r : Fin 256) :
    k0_pay1 (F := Ideal) x (ix2 r (0 : Fin 1)) = ∑ k : Fin 8192, x (ix2 r k) := by
  show shapeCast S256x1 (multiReduction (F := Ideal) .add [1] S256 x 0x00000000#32 reduces_S256x8192_S256 (.inl rfl) rfl)
      shapeCasts_S256_S256x1 (ix2 r (0 : Fin 1)) = _
  rw [Cert.LibColumn.shapeCast_a_a1_apply]
  exact Cert.LibColumn.multiReduction_add_last_apply x _ _ _ r

/-- The cleared row buffer holds zero everywhere. -/
private theorem k0_pay3_apply (j : S1x8192.Idx) : k0_pay3 (F := Ideal) j = 0 := by
  show shapeCast S1x8192 (broadcast S1x8192 (Scalar.ofBits (F := Ideal) .f32 0x00000000#32)) shapeCasts_S1x8192_S1x8192 j = 0
  rw [shapeCast_self]
  exact Ideal.ofBits_zero_f32

/-- The cleared edge-by-feature buffer holds zero everywhere. -/
private theorem k0_pay2_apply (j : S8192x64.Idx) : k0_pay2 (F := Ideal) j = 0 := by
  show shapeCast S8192x64 (broadcast S8192x64 (Scalar.ofBits (F := Ideal) .f32 0x00000000#32)) shapeCasts_S8192x64_S8192x64 j = 0
  rw [shapeCast_self]
  exact Ideal.ofBits_zero_f32

/-- One block's step of the column sums: the buffer's entry at column `m` plus the block's column sum there. -/
private theorem k0_pay5_apply (x : Vec Ideal S256x8192 .f32) (acc : Vec Ideal S1x8192 .f32) (m : Fin 8192) :
    k0_pay5 (F := Ideal) x acc (ix2 (0 : Fin 1) m) = acc (ix2 (0 : Fin 1) m) + ∑ r : Fin 256, x (ix2 r m) := by
  show shapeCast S1x8192 (addf acc (shapeCast S1x8192
      (multiReduction (F := Ideal) .add [0] S8192 x 0x00000000#32 reduces_S256x8192_S8192 (.inl rfl) rfl) shapeCasts_S8192_S1x8192))
      shapeCasts_S1x8192_S1x8192 (ix2 (0 : Fin 1) m) = _
  rw [shapeCast_self, addf_apply, shapeCast_a_1a_apply, multiReduction_add_first_apply]

/-- The running column sums after block `n`, at column `m`: over the blocks so far, the block's column sum. -/
theorem accE_apply (hb : ℕ → Vec Ideal S256x8192 .f32) (n : ℕ) (m : Fin 8192) :
    accE (F := Ideal) hb n (ix2 (0 : Fin 1) m) = ∑ t : Fin (n + 1), ∑ r : Fin 256, hb t.val (ix2 r m) := by
  induction n with
  | zero =>
    rw [accE_zero, k0_pay5_apply, k0_pay3_apply, zero_add, Fin.sum_univ_one]
    rfl
  | succ n ih =>
    rw [Fin.sum_univ_castSucc (n := n + 1), accE_succ, k0_pay5_apply, ih]
    rfl

/-! ## The matrix unit's product at an index -/

/-- The left operand's contracted axis reads the contraction coordinate. -/
private theorem lhs_0 (i : S8192x64.Idx) (q : dot_S256x8192_S256x64_S8192x64_0_0_1_1_n_n.contr.Idx) :
    (dot_S256x8192_S256x64_S8192x64_0_0_1_1_n_n.lhsIdx i q 0).val = (q ⟨0, by decide⟩).val :=
  dot_S256x8192_S256x64_S8192x64_0_0_1_1_n_n.lhsIdx_val_of_single rfl i q
/-- The left operand's kept axis reads the result's first coordinate. -/
private theorem lhs_1 (i : S8192x64.Idx) (q : dot_S256x8192_S256x64_S8192x64_0_0_1_1_n_n.contr.Idx) :
    (dot_S256x8192_S256x64_S8192x64_0_0_1_1_n_n.lhsIdx i q 1).val = (i 0).val := by
  unfold DotDims.lhsIdx
  rw [dif_neg (show ¬(1 : Fin S256x8192.rank) ∈ dot_S256x8192_S256x64_S8192x64_0_0_1_1_n_n.lhsBatch by decide), dif_pos (show (1 : Fin S256x8192.rank) ∈ dot_S256x8192_S256x64_S8192x64_0_0_1_1_n_n.lhsNonContracting by decide)]
  rfl
/-- The right operand's contracted axis reads the contraction coordinate. -/
private theorem rhs_0 (i : S8192x64.Idx) (q : dot_S256x8192_S256x64_S8192x64_0_0_1_1_n_n.contr.Idx) :
    (dot_S256x8192_S256x64_S8192x64_0_0_1_1_n_n.rhsIdx i q 0).val = (q ⟨0, by decide⟩).val :=
  dot_S256x8192_S256x64_S8192x64_0_0_1_1_n_n.rhsIdx_val_of_single rfl i q
/-- The right operand's kept axis reads the result's second coordinate. -/
private theorem rhs_1 (i : S8192x64.Idx) (q : dot_S256x8192_S256x64_S8192x64_0_0_1_1_n_n.contr.Idx) :
    (dot_S256x8192_S256x64_S8192x64_0_0_1_1_n_n.rhsIdx i q 1).val = (i 1).val := by
  unfold DotDims.rhsIdx
  rw [dif_neg (show ¬(1 : Fin S256x64.rank) ∈ dot_S256x8192_S256x64_S8192x64_0_0_1_1_n_n.rhsBatch by decide), dif_pos (show (1 : Fin S256x64.rank) ∈ dot_S256x8192_S256x64_S8192x64_0_0_1_1_n_n.rhsNonContracting by decide)]
  rfl

/-- The product of the transposed block with a `[256, 64]` array into the zero accumulator, at `(m, d)`: the sum over the
    block's rows `r` of the block at `(r, m)` times the array at `(r, d)`. -/
private theorem matmul_T_apply {φ₁ φ₂ : FTy} (a : FVec Ideal S256x8192 φ₁) (b : FVec Ideal S256x64 φ₂) (m : Fin 8192) (d : Fin 64) :
    matmul dot_S256x8192_S256x64_S8192x64_0_0_1_1_n_n none a b (constant S8192x64 .f32 0x00000000#32) (ix2 m d)
      = ∑ r : Fin 256, a (ix2 r m) * b (ix2 r d) := by
  simp only [matmul]
  rw [Ideal.matmul_constant_zero_apply, ← Equiv.sum_comp (contrEquiv1 dot_S256x8192_S256x64_S8192x64_0_0_1_1_n_n 256 rfl rfl).symm]
  refine Finset.sum_congr rfl fun k _ => ?_
  have hk := contrEquiv1_symm_val dot_S256x8192_S256x64_S8192x64_0_0_1_1_n_n 256 rfl rfl k
  have el : dot_S256x8192_S256x64_S8192x64_0_0_1_1_n_n.lhsIdx (ix2 m d) ((contrEquiv1 dot_S256x8192_S256x64_S8192x64_0_0_1_1_n_n 256 rfl rfl).symm k) = ix2 k m := funext fun e => Fin.ext (by
    match e with
    | ⟨0, _⟩ => exact (lhs_0 _ _).trans hk
    | ⟨1, _⟩ => exact lhs_1 _ _)
  have er : dot_S256x8192_S256x64_S8192x64_0_0_1_1_n_n.rhsIdx (ix2 m d) ((contrEquiv1 dot_S256x8192_S256x64_S8192x64_0_0_1_1_n_n 256 rfl rfl).symm k) = ix2 k d := funext fun e => Fin.ext (by
    match e with
    | ⟨0, _⟩ => exact (rhs_0 _ _).trans hk
    | ⟨1, _⟩ => exact rhs_1 _ _)
  rw [el, er]

/-- One block's step of the edge-by-feature sum: the buffer's entry at `(m, d)` plus, over the block's rows, the
    incidence entry times the feature scaled by the row's sum. -/
private theorem k0_pay4_apply (x : Vec Ideal S256x8192 .f32) (f : Vec Ideal S256x64 .f32) (acc : Vec Ideal S8192x64 .f32)
    (m : Fin 8192) (d : Fin 64) :
    k0_pay4 (F := Ideal) x f acc (ix2 m d)
      = acc (ix2 m d) + ∑ r : Fin 256, x (ix2 r m) * (f (ix2 r d) * ∑ k : Fin 8192, x (ix2 r k)) := by
  show shapeCast S8192x64 (addf acc (matmul dot_S256x8192_S256x64_S8192x64_0_0_1_1_n_n none
      (truncf .bf16 x bitsLt_bf16_f32)
      (truncf .bf16 (mulf f (broadcastTo S256x64 (k0_pay1 (F := Ideal) x) broadcasts_S256x1_S256x64)) bitsLt_bf16_f32)
      (constant S8192x64 .f32 0x00000000#32))) shapeCasts_S8192x64_S8192x64 (ix2 m d) = _
  rw [shapeCast_self, addf_apply, matmul_T_apply]
  refine congrArg (acc (ix2 m d) + ·) (Finset.sum_congr rfl fun r _ => ?_)
  rw [truncf_apply, truncf_apply, mulf_apply, Cert.LibColumn.broadcastTo_a1_ab_apply, k0_pay1_apply]

/-- The edge-by-feature running sum after block `n`, at edge `m` and feature `d`: over the blocks so far and the
    block's rows, the incidence entry times the feature scaled by the row's sum. -/
theorem accX_apply (hb : ℕ → Vec Ideal S256x8192 .f32) (fb : ℕ → Vec Ideal S256x64 .f32) (n : ℕ) (m : Fin 8192) (d : Fin 64) :
    accX (F := Ideal) hb fb n (ix2 m d)
      = ∑ t : Fin (n + 1), ∑ r : Fin 256, hb t.val (ix2 r m) * (fb t.val (ix2 r d) * ∑ k : Fin 8192, hb t.val (ix2 r k)) := by
  induction n with
  | zero =>
    rw [accX_zero, k0_pay4_apply, k0_pay2_apply, zero_add, Fin.sum_univ_one]
    rfl
  | succ n ih =>
    rw [Fin.sum_univ_castSucc (n := n + 1), accX_succ, k0_pay4_apply, ih]
    rfl

end Cert.KernelIdeal.Hand

end
-- ==== Proof.Spec.lean ====
/-
  What the degree-normalised hypergraph step computes, entry by entry, on the extended reals.
  With `H` the node-by-edge incidence matrix and `X` the node features: a node's degree is its row sum of `H`, an
  edge's degree its column sum; the features are scaled by the node degrees and gathered onto the edges through the
  transposed matrix, scaled there by the edge degrees, scattered back to the nodes through `H`, and scaled by the node
  degrees once more. Only sums and products occur. The one law needed beyond that is that a sum over the 16384 nodes
  may be taken block by block, 64 blocks of 256 consecutive nodes: addition on the extended reals is commutative and
  associative, so the regrouping holds for every input, infinite entries included.
-/
import Idealize.ShloMosaic.Lib.ValueIdx
import Idealize.ShloMosaic.PureOps.Ideal

noncomputable section

open scoped BigOperators

namespace Cert.Hyper

open Idealize.ShloMosaic Idealize.ShloMosaic.ValueIdx

abbrev SInc : Shape := ⟨2, ![16384, 8192]⟩
abbrev SFeat : Shape := ⟨2, ![16384, 64]⟩

/-- The degree of node `n`: the sum of its row of the incidence matrix. -/
def nodeDeg (H : SInc.Idx → EReal) (n : Fin 16384) : EReal := ∑ m : Fin 8192, H (ix2 n m)

/-- The degree of edge `m`: the sum of its column of the incidence matrix. -/
def edgeDeg (H : SInc.Idx → EReal) (m : Fin 8192) : EReal := ∑ n : Fin 16384, H (ix2 n m)

/-- Feature `d` gathered onto edge `m`: over the nodes, the incidence entry times the degree-scaled feature. -/
def edgeFeat (H : SInc.Idx → EReal) (X : SFeat.Idx → EReal) (m : Fin 8192) (d : Fin 64) : EReal :=
  ∑ n : Fin 16384, H (ix2 n m) * (X (ix2 n d) * nodeDeg H n)

/-- The result at node `p`, feature `q`. -/
def resultAt (H : SInc.Idx → EReal) (X : SFeat.Idx → EReal) (p : Fin 16384) (q : Fin 64) : EReal :=
  (∑ m : Fin 8192, H (ix2 p m) * (edgeFeat H X m q * edgeDeg H m)) * nodeDeg H p

/-- The result as an array. -/
def result (H : SInc.Idx → EReal) (X : SFeat.Idx → EReal) : SFeat.Idx → EReal := fun i => resultAt H X (i 0) (i 1)

/-- A sum over the 16384 nodes, taken as 64 blocks of 256 consecutive nodes. -/
theorem sum_blocks (f : Fin 16384 → EReal) :
    (∑ t : Fin 64, ∑ r : Fin 256, f ⟨256 * t.val + r.val, by have := t.isLt; have := r.isLt; omega⟩) = ∑ n : Fin 16384, f n := by
  -- the pairs (block, offset) are in bijection with the nodes, by (t, r) ↦ r + 256 * t
  let e : Fin 64 × Fin 256 ≃ Fin 16384 := finProdFinEquiv.trans (finCongr (by norm_num))
  rw [← Equiv.sum_comp e f, Fintype.sum_prod_type]
  refine Finset.sum_congr rfl fun t _ => Finset.sum_congr rfl fun r _ => congrArg f (Fin.ext ?_)
  show 256 * t.val + r.val = r.val + 256 * t.val
  exact Nat.add_comm _ _

end Cert.Hyper

end
-- ==== Proof.IValue0.lean ====
/-
  What the first sweep leaves in its three result arrays, entry by entry on the extended reals, as functions of the
  incidence matrix and the features the region was entered with. The degree column is written back block by block, 256
  rows at each of the 64 points, so row `p` comes from point `p / 256`. The two late results are single blocks written
  back at the last point only, holding the running sums after the last block; a sum over the 64 blocks of 256 rows each is
  the sum over all 16384 rows.
-/
import proofs.«101532_j26061861552225_1_alg».proof.Proof.IRegion0
import proofs.«101532_j26061861552225_1_alg».proof.Proof.IPay
import proofs.«101532_j26061861552225_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the unscoped buffers' contents when the region is entered, on the extended reals
variable (V : (c : Dev nD) → (b : Ref sig .tc) → Buf (Elt Ideal) ((c : Thread nD τ).loc b))

/-- The two arrays the region is entered with and its three result arrays after the run, each named at its literal type. -/
abbrev inc0 (c : Dev nD) : S16384x8192.Idx → EReal := V c main_arg0
abbrev feat0 (c : Dev nD) : S16384x64.Idx → EReal := V c main_arg1
abbrev degRes (c : Dev nD) : S16384x1.Idx → EReal := (dat0 (F := Ideal) V c).arrAt 2 cfg0.N
abbrev edgeDegRes (c : Dev nD) : S1x8192.Idx → EReal := (dat0 (F := Ideal) V c).arrAt 3 cfg0.N
abbrev edgeFeatRes (c : Dev nD) : S8192x64.Idx → EReal := (dat0 (F := Ideal) V c).arrAt 4 cfg0.N

/-! ## The printed index maps, and the input blocks as rows of their arrays -/

/-- The index maps of the region's windows, over the grid: the two inputs' blocks and the degree column's block move down
    one block of rows per point and stay in the first block of columns; the two late results sit at block `(0, 0)`. -/
private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The last point of the grid. -/
private abbrev tLast : Fin cfg0.N := ⟨63, by rw [show cfg0.N = 64 from N_0]; decide⟩

/-- The incidence block of point `t` is rows `256 t … 256 t + 255` of the incidence matrix. -/
private theorem iblk0_0_apply (c : Dev nD) (t : Fin cfg0.N) (y : S256x8192.Idx) (i : S16384x8192.Idx)
    (h0 : (i 0).val = 256 * t.val + (y 0).val) (h1 : (i 1).val = (y 1).val) :
    (iblk0 (F := Ideal) V c 0 t : Vec Ideal S256x8192 .f32) y = inc0 V c i := by
  obtain ⟨e0, e1, -⟩ := idx_facts0 t
  unfold iblk0
  rw [View.read_apply]
  show V c main_arg0 (((cfg0.win 0).blk t).view.emb y) = V c main_arg0 i
  refine congrArg (V c main_arg0) (funext fun a => Fin.ext ?_)
  match a with
  | ⟨0, _⟩ => show win0_0.index t (0 : Fin 2) * 256 + 1 * (y 0).val = (i 0).val; omega
  | ⟨1, _⟩ => show win0_0.index t (1 : Fin 2) * 8192 + 1 * (y 1).val = (i 1).val; omega

/-- The feature block of point `t` is rows `256 t … 256 t + 255` of the features. -/
private theorem iblk0_1_apply (c : Dev nD) (t : Fin cfg0.N) (y : S256x64.Idx) (i : S16384x64.Idx)
    (h0 : (i 0).val = 256 * t.val + (y 0).val) (h1 : (i 1).val = (y 1).val) :
    (iblk0 (F := Ideal) V c 1 t : Vec Ideal S256x64 .f32) y = feat0 V c i := by
  obtain ⟨-, -, e0, e1, -⟩ := idx_facts0 t
  unfold iblk0
  rw [View.read_apply]
  show V c main_arg1 (((cfg0.win 1).blk t).view.emb y) = V c main_arg1 i
  refine congrArg (V c main_arg1) (funext fun a => Fin.ext ?_)
  match a with
  | ⟨0, _⟩ => show win0_1.index t (0 : Fin 2) * 256 + 1 * (y 0).val = (i 0).val; omega
  | ⟨1, _⟩ => show win0_1.index t (1 : Fin 2) * 64 + 1 * (y 1).val = (i 1).val; omega

/-- The incidence block of point number `t`, at `(r, k)`: the incidence matrix at row `256 t + r`. -/
private theorem hblk_apply (c : Dev nD) (t : Fin 64) (r : Fin 256) (k : Fin 8192) :
    hblk (F := Ideal) V c t.val (ix2 r k) = inc0 V c (ix2 (⟨256 * t.val + r.val, by have := t.isLt; have := r.isLt; omega⟩ : Fin 16384) k) := by
  have ht : t.val < cfg0.N := lt_of_lt_of_eq t.isLt (show 64 = cfg0.N from N_0.symm)
  refine (congrFun (hblk_val V c ⟨t.val, ht⟩) (ix2 r k)).trans ?_
  exact iblk0_0_apply V c ⟨t.val, ht⟩ (ix2 r k) _ rfl rfl

/-- The feature block of point number `t`, at `(r, d)`: the features at row `256 t + r`. -/
private theorem fblk_apply (c : Dev nD) (t : Fin 64) (r : Fin 256) (d : Fin 64) :
    fblk (F := Ideal) V c t.val (ix2 r d) = feat0 V c (ix2 (⟨256 * t.val + r.val, by have := t.isLt; have := r.isLt; omega⟩ : Fin 16384) d) := by
  have ht : t.val < cfg0.N := lt_of_lt_of_eq t.isLt (show 64 = cfg0.N from N_0.symm)
  refine (congrFun (fblk_val V c ⟨t.val, ht⟩) (ix2 r d)).trans ?_
  exact iblk0_1_apply V c ⟨t.val, ht⟩ (ix2 r d) _ rfl rfl

/-! ## The degree column: written back block by block -/

/-- The degree column as one function of the incidence matrix: row `p`'s entry is the sum of row `p`. -/
private abbrev degG (c : Dev nD) : S16384x1.Idx → EReal := fun i => ∑ k : Fin 8192, inc0 V c (ix2 (i 0) k)

/-- A block's stored degree column at any index of the column: the sum of the block's row there. -/
private theorem degBlock_apply (x : Vec Ideal S256x8192 .f32) (y : S256x1.Idx) :
    k0_pay1 (F := Ideal) x y = ∑ k : Fin 8192, x (ix2 (y 0) k) := by
  obtain ⟨r, u, rfl⟩ : ∃ (r : Fin 256) (u : Fin 1), y = ix2 r u := ⟨y 0, y 1, eq_ix2 y⟩
  obtain rfl : u = 0 := Subsingleton.elim _ _
  exact k0_pay1_apply x r

/-- What point `t` writes back to the degree column is block `t` of that function: row `r` of the block is row
    `256 t + r` of the incidence matrix. -/
private theorem flushed0_2_eq (c : Dev nD) (t : Fin cfg0.N) :
    (dat0 (F := Ideal) V c).flushed 2 t = ((cfg0.win 2).blk t).view.read (Elt Ideal) (degG V c) := by
  show (cfg0.win 2).cut (grid0.coords t) ((dat0 (F := Ideal) V c).after 2 t) = _
  rw [after0_2]
  funext y
  obtain ⟨-, -, -, -, e0, e1, -⟩ := idx_facts0 t
  show k0_pay1 (F := Ideal) (iblk0 V c 0 t) ((cfg0.win 2).xinj (grid0.coords t) y) = degG V c (((cfg0.win 2).blk t).view.emb y)
  refine (degBlock_apply (iblk0 V c 0 t) ((cfg0.win 2).xinj (grid0.coords t) y)).trans ?_
  refine Finset.sum_congr rfl fun k _ => iblk0_0_apply V c t _ _ ?_ rfl
  show win0_2.index t (0 : Fin 2) * 256 + 1 * (y 0).val = 256 * t.val + (y 0).val
  omega

/-- An index of the degree column is in point `t`'s block iff each coordinate is in the block's range on its axis. -/
private theorem mem_blk0_2 (t : Fin cfg0.N) (i : S16384x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_0).slice (win0_2.rect t)).set ↔ _
  rw [View.set_slice_whole, Rect.mem_set_unit]
  exact Iff.rfl

/-- The degree column after the run: row `p` is covered by point `p / 256`, so the whole column is that function. -/
private theorem final0_2 (c : Dev nD) : degRes V c = degG V c :=
  (dat0 (F := Ideal) V c).arrAt_eq_of_cover 2 (degG V c) (fun t _ => flushed0_2_eq V c t) fun i => by
    have h0 : (i 0).val < 16384 := (i 0).isLt
    have h1 : (i 1).val < 1 := (i 1).isLt
    have ht : (i 0).val / 256 < cfg0.N := by rw [show cfg0.N = 64 from N_0]; omega
    refine ⟨⟨(i 0).val / 256, ht⟩, flush0_2 _, ?_⟩
    rw [mem_blk0_2]
    obtain ⟨-, -, -, -, e0, e1, -⟩ := idx_facts0 ⟨(i 0).val / 256, ht⟩
    have e0' : win0_2.index ⟨(i 0).val / 256, ht⟩ (0 : Fin 2) = (i 0).val / 256 := e0
    intro a
    match a with
    | ⟨0, _⟩ => show win0_2.index ⟨(i 0).val / 256, ht⟩ (0 : Fin 2) * 256 ≤ (i 0).val ∧ (i 0).val < win0_2.index ⟨(i 0).val / 256, ht⟩ (0 : Fin 2) * 256 + 256; omega
    | ⟨1, _⟩ => show win0_2.index ⟨(i 0).val / 256, ht⟩ (1 : Fin 2) * 1 ≤ (i 1).val ∧ (i 1).val < win0_2.index ⟨(i 0).val / 256, ht⟩ (1 : Fin 2) * 1 + 1; omega

/-- The node degrees: row `p` of the degree column is the sum of row `p` of the incidence matrix. -/
theorem arr0_2_apply (c : Dev nD) (p : Fin 16384) :
    degRes V c (ix2 p (0 : Fin 1)) = ∑ k : Fin 8192, inc0 V c (ix2 p k) := by
  rw [final0_2]

/-! ## The edge degrees: one block, written back at the last point -/

/-- What the last point writes back to the edge-degree row is the running column sums after it, read through the one
    block at `(0, 0)`, which is the whole row. -/
private theorem flushed0_3_eq (c : Dev nD) (t : Fin cfg0.N) (hf : (cfg0.win 3).flush t = true) :
    (dat0 (F := Ideal) V c).flushed 3 t = ((cfg0.win 3).blk t).view.read (Elt Ideal) (accE (hblk V c) 63) := by
  have hN : t.val < 64 := lt_of_lt_of_eq t.isLt (show cfg0.N = 64 from N_0)
  have h63 : t.val = 63 := by have := (flush0_3 t).mp hf; omega
  show (cfg0.win 3).cut (grid0.coords t) ((dat0 (F := Ideal) V c).after 3 t) = _
  rw [after0_3, h63]
  funext y
  obtain ⟨-, -, -, -, -, -, e0, e1, -, -⟩ := idx_facts0 t
  show accE (hblk V c) 63 ((cfg0.win 3).xinj (grid0.coords t) y) = accE (hblk V c) 63 (((cfg0.win 3).blk t).view.emb y)
  refine congrArg (accE (hblk V c) 63) (funext fun a => Fin.ext ?_)
  match a with
  | ⟨0, _⟩ => show (y 0).val = win0_3.index t (0 : Fin 2) * 1 + 1 * (y 0).val; omega
  | ⟨1, _⟩ => show (y 1).val = win0_3.index t (1 : Fin 2) * 8192 + 1 * (y 1).val; omega

/-- An index of the edge-degree row is in point `t`'s block iff each coordinate is in the block's range on its axis. -/
private theorem mem_blk0_3 (t : Fin cfg0.N) (i : S1x8192.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v0_1).slice (win0_3.rect t)).set ↔ _
  rw [View.set_slice_whole, Rect.mem_set_unit]
  exact Iff.rfl

/-- The edge-degree row after the run: the last point's block covers it, so it holds the running column sums after the
    last block. -/
private theorem final0_3 (c : Dev nD) : edgeDegRes V c = accE (F := Ideal) (hblk V c) 63 :=
  (dat0 (F := Ideal) V c).arrAt_eq_of_cover 3 (accE (hblk V c) 63) (flushed0_3_eq V c) fun i =>
    ⟨tLast, (flush0_3 tLast).mpr rfl, by
      rw [mem_blk0_3]
      obtain ⟨-, -, -, -, -, -, e0, e1, -, -⟩ := idx_facts0 tLast
      have h0 : (i 0).val < 1 := (i 0).isLt
      have h1 : (i 1).val < 8192 := (i 1).isLt
      intro a
      match a with
      | ⟨0, _⟩ => show win0_3.index tLast (0 : Fin 2) * 1 ≤ (i 0).val ∧ (i 0).val < win0_3.index tLast (0 : Fin 2) * 1 + 1; omega
      | ⟨1, _⟩ => show win0_3.index tLast (1 : Fin 2) * 8192 ≤ (i 1).val ∧ (i 1).val < win0_3.index tLast (1 : Fin 2) * 8192 + 8192; omega⟩

/-- The edge degrees: entry `e` of the row of column sums is the sum of column `e` of the incidence matrix. -/
theorem arr0_3_apply (c : Dev nD) (e : Fin 8192) :
    edgeDegRes V c (ix2 (0 : Fin 1) e) = ∑ n : Fin 16384, inc0 V c (ix2 n e) := by
  rw [final0_3, accE_apply, ← Cert.Hyper.sum_blocks (fun n => inc0 V c (ix2 n e))]
  exact Finset.sum_congr rfl fun t _ => Finset.sum_congr rfl fun r _ => hblk_apply V c t r e

/-! ## The edge features: one block, written back at the last point -/

/-- What the last point writes back to the edge-feature array is the running edge-by-feature sum after it, read through
    the one block at `(0, 0)`, which is the whole array. -/
private theorem flushed0_4_eq (c : Dev nD) (t : Fin cfg0.N) (hf : (cfg0.win 4).flush t = true) :
    (dat0 (F := Ideal) V c).flushed 4 t = ((cfg0.win 4).blk t).view.read (Elt Ideal) (accX (hblk V c) (fblk V c) 63) := by
  have hN : t.val < 64 := lt_of_lt_of_eq t.isLt (show cfg0.N = 64 from N_0)
  have h63 : t.val = 63 := by have := (flush0_4 t).mp hf; omega
  show (cfg0.win 4).cut (grid0.coords t) ((dat0 (F := Ideal) V c).after 4 t) = _
  rw [after0_4, h63]
  funext y
  obtain ⟨-, -, -, -, -, -, -, -, e0, e1⟩ := idx_facts0 t
  show accX (hblk V c) (fblk V c) 63 ((cfg0.win 4).xinj (grid0.coords t) y) = accX (hblk V c) (fblk V c) 63 (((cfg0.win 4).blk t).view.emb y)
  refine congrArg (accX (hblk V c) (fblk V c) 63) (funext fun a => Fin.ext ?_)
  match a with
  | ⟨0, _⟩ => show (y 0).val = win0_4.index t (0 : Fin 2) * 8192 + 1 * (y 0).val; omega
  | ⟨1, _⟩ => show (y 1).val = win0_4.index t (1 : Fin 2) * 64 + 1 * (y 1).val; omega

/-- An index of the edge-feature array is in point `t`'s block iff each coordinate is in the block's range on its axis. -/
private theorem mem_blk0_4 (t : Fin cfg0.N) (i : S8192x64.Idx) :
    i ∈ ((cfg0.win 4).blk t).view.set ↔ ∀ a : Fin 2, win0_4.index t a * S8192x64.size a ≤ (i a).val ∧ (i a).val < win0_4.index t a * S8192x64.size a + S8192x64.size a := by
  show i ∈ ((View.whole main_v0_2).slice (win0_4.rect t)).set ↔ _
  rw [View.set_slice_whole, Rect.mem_set_unit]
  exact Iff.rfl

/-- The edge-feature array after the run: the last point's block covers it, so it holds the running edge-by-feature sum
    after the last block. -/
private theorem final0_4 (c : Dev nD) : edgeFeatRes V c = accX (F := Ideal) (hblk V c) (fblk V c) 63 :=
  (dat0 (F := Ideal) V c).arrAt_eq_of_cover 4 (accX (hblk V c) (fblk V c) 63) (flushed0_4_eq V c) fun i =>
    ⟨tLast, (flush0_4 tLast).mpr rfl, by
      rw [mem_blk0_4]
      obtain ⟨-, -, -, -, -, -, -, -, e0, e1⟩ := idx_facts0 tLast
      have h0 : (i 0).val < 8192 := (i 0).isLt
      have h1 : (i 1).val < 64 := (i 1).isLt
      intro a
      match a with
      | ⟨0, _⟩ => show win0_4.index tLast (0 : Fin 2) * 8192 ≤ (i 0).val ∧ (i 0).val < win0_4.index tLast (0 : Fin 2) * 8192 + 8192; omega
      | ⟨1, _⟩ => show win0_4.index tLast (1 : Fin 2) * 64 ≤ (i 1).val ∧ (i 1).val < win0_4.index tLast (1 : Fin 2) * 64 + 64; omega⟩

/-- The features gathered onto the edges: over the nodes, the incidence entry times the feature scaled by the node's degree. -/
theorem arr0_4_apply (c : Dev nD) (e : Fin 8192) (d : Fin 64) :
    edgeFeatRes V c (ix2 e d)
      = ∑ n : Fin 16384, inc0 V c (ix2 n e) * (feat0 V c (ix2 n d) * ∑ k : Fin 8192, inc0 V c (ix2 n k)) := by
  rw [final0_4, accX_apply,
    ← Cert.Hyper.sum_blocks (fun n => inc0 V c (ix2 n e) * (feat0 V c (ix2 n d) * ∑ k : Fin 8192, inc0 V c (ix2 n k)))]
  refine Finset.sum_congr rfl fun t _ => Finset.sum_congr rfl fun r _ => ?_
  rw [hblk_apply V c t r e, fblk_apply V c t r d]
  exact congrArg (fun s => _ * (_ * s)) (Finset.sum_congr rfl fun k _ => hblk_apply V c t r k)

end Cert.KernelIdeal.Hand

end
-- ==== Proof.IPay1.lean ====
/-
  The second sweep's arithmetic read entry by entry on the extended reals: a block of 256 rows of the incidence matrix is
  multiplied into the edge features and each row is scaled by its node degree. A narrowing of the float format is the
  identity there, and the matrix unit's product into a zero accumulator is the plain sum of products.
-/
import proofs.«101532_j26061861552225_1_alg».proof.Proof.Gen.KernelIdeal.Skeleton
import proofs.«101532_j26061861552225_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The product's left operand is read at the output's row: axis 0 of the left operand is not contracted. -/
theorem lhs_k1_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide),
    dif_pos (show (0 : Fin S256x8192.rank) ∈ dot_S256x8192_S8192x64_S256x64_1_0_0_1_n_n.lhsNonContracting by decide)]
  rfl

/-- The product's left operand is read at the summation index along its contracted axis 1. -/
theorem lhs_k1_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q

/-- The product's right operand is read at the summation index along its contracted axis 0. -/
theorem rhs_k1_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q

/-- The product's right operand is read at the output's column: axis 1 of the right operand is not contracted. -/
theorem rhs_k1_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide),
    dif_pos (show (1 : Fin S8192x64.rank) ∈ dot_S256x8192_S8192x64_S256x64_1_0_0_1_n_n.rhsNonContracting by decide)]
  rfl

/-- The matrix unit's product into the zero accumulator, at row `p` and column `q`: the sum over the 8192 shared
    positions of the left operand's row entry times the right operand's column entry. -/
theorem matmul_k1_apply (a : FVec Ideal S256x8192 .bf16) (b : FVec Ideal S8192x64 .bf16) (p : Fin 256) (q : Fin 64) :
    matmul dot_S256x8192_S8192x64_S256x64_1_0_0_1_n_n none a b (constant S256x64 .f32 0x00000000#32) (ix2 p q)
      = ∑ k : Fin 8192, a (ix2 p k) * b (ix2 k q) := by
  show FloatOps.matmul dot_S256x8192_S8192x64_S256x64_1_0_0_1_n_n none a b (constant S256x64 .f32 0x00000000#32) (ix2 p q) = _
  rw [Ideal.matmul_constant_zero_apply,
    ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 p q)
      ((contrEquiv1 dot_S256x8192_S8192x64_S256x64_1_0_0_1_n_n 8192 rfl rfl).symm k) = ix2 p k :=
    funext fun c => Fin.ext (by
      match c with
      | ⟨0, _⟩ => exact lhs_k1_0 _ _
      | ⟨1, _⟩ => exact (lhs_k1_1 _ _).trans hk)
  have er : dot_S256x8192_S8192x64_S256x64_1_0_0_1_n_n.rhsIdx (ix2 p q)
      ((contrEquiv1 dot_S256x8192_S8192x64_S256x64_1_0_0_1_n_n 8192 rfl rfl).symm k) = ix2 k q :=
    funext fun c => Fin.ext (by
      match c with
      | ⟨0, _⟩ => exact (rhs_k1_0 _ _).trans hk
      | ⟨1, _⟩ => exact rhs_k1_1 _ _)
  rw [el, er]

/-- The second sweep's stored block at row `p`, feature `q`: the row of the incidence block against the edge features'
    column, scaled by the row's degree. -/
theorem k1_pay1_apply (x0 : Vec Ideal S256x8192 .f32) (x1 : Vec Ideal S8192x64 .f32) (x3 : Vec Ideal S256x1 .f32)
    (p : Fin 256) (q : Fin 64) :
    k1_pay1 (F := Ideal) x0 x1 x3 (ix2 p q) = (∑ k : Fin 8192, x0 (ix2 p k) * x1 (ix2 k q)) * x3 (ix2 p (0 : Fin 1)) := by
  unfold k1_pay1
  rw [mulf_apply, shapeCast_self, shapeCast_self, matmul_k1_apply,
    Cert.LibColumn.broadcastTo_a1_ab_apply (a := 256) (b := 64)]
  rfl

end Cert.KernelIdeal.Hand

end
-- ==== Proof.IValue1.lean ====
/-
  What the second sweep leaves in its result array, entry by entry on the extended reals, as a function of the three
  arrays the region was entered with: the incidence matrix, the scaled edge features and the degree column. The result
  is written back block by block, 256 rows at each of the 64 points, so row `p` comes from point `p / 256`; the edge
  features are one block, the whole array, at every point.
-/
import proofs.«101532_j26061861552225_1_alg».proof.Proof.IRegion1
import proofs.«101532_j26061861552225_1_alg».proof.Proof.IPay1
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the unscoped buffers' contents when the region is entered, on the extended reals
variable (V : (c : Dev nD) → (b : Ref sig .tc) → Buf (Elt Ideal) ((c : Thread nD τ).loc b))

/-- The three arrays the region is entered with and its result array after the run, each named at its literal type. -/
abbrev inc1 (c : Dev nD) : S16384x8192.Idx → EReal := V c main_arg0
abbrev edge1 (c : Dev nD) : S8192x64.Idx → EReal := V c main_v3
abbrev deg1 (c : Dev nD) : S16384x1.Idx → EReal := V c main_v0_0
abbrev res1 (c : Dev nD) : S16384x64.Idx → EReal := (dat1 (F := Ideal) V c).arrAt 3 cfg1.N

/-- The whole-buffer accesses of the body start at the origin. -/
theorem origin2 : (![0, 0] : Fin 2 → Nat) = fun _ => 0 := funext fun a => by fin_cases a <;> rfl

/-- The result array as one function of the three arrays the region is entered with: row `i 0` of the incidence matrix
    against column `i 1` of the edge features, scaled by the degree of node `i 0`. -/
abbrev whole1 (c : Dev nD) : S16384x64.Idx → EReal := fun i =>
  (∑ k : Fin 8192, inc1 V c (ix2 (⟨(i 0).val, idx2_lt0 i⟩ : Fin 16384) k) * edge1 V c (ix2 k (⟨(i 1).val, idx2_lt1 i⟩ : Fin 64)))
    * deg1 V c (ix2 (⟨(i 0).val, idx2_lt0 i⟩ : Fin 16384) (0 : Fin 1))

/-- The printed block-index maps over the 64 points: the incidence, degree and result blocks are block row `t` of their
    arrays, and the edge features are the one block at the origin. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The payload at any index of the block, named by its two coordinates. -/
theorem pay1_at (x0 : Vec Ideal S256x8192 .f32) (x1 : Vec Ideal S8192x64 .f32) (x3 : Vec Ideal S256x1 .f32)
    (j : S256x64.Idx) (r : Fin 256) (s : Fin 64) (hr : (j 0).val = r.val) (hs : (j 1).val = s.val) :
    k1_pay1 (F := Ideal) x0 x1 x3 j = (∑ k : Fin 8192, x0 (ix2 r k) * x1 (ix2 k s)) * x3 (ix2 r (0 : Fin 1)) := by
  have e : j = ix2 r s := funext fun a => Fin.ext (by
    match a with
    | ⟨0, _⟩ => exact hr
    | ⟨1, _⟩ => exact hs)
  rw [e]
  exact k1_pay1_apply x0 x1 x3 r s

/-- The incidence block at point `t` is rows `256 t … 256 t + 255` of the incidence matrix. -/
theorem iblk1_0_apply (c : Dev nD) (t : Fin cfg1.N) (x : S256x8192.Idx) (i : S16384x8192.Idx)
    (h0 : (i 0).val = 256 * t.val + (x 0).val) (h1 : (i 1).val = (x 1).val) :
    (iblk1 (F := Ideal) V c 0 t : Vec Ideal S256x8192 .f32) x = inc1 V c i := by
  obtain ⟨e00, e01, -⟩ := block_index1 t
  unfold iblk1
  rw [View.read_apply]
  show V c main_arg0 (((cfg1.win 0).blk t).view.emb x) = V c main_arg0 i
  congr 1
  funext a
  apply Fin.ext
  match a with
  | ⟨0, _⟩ => show win1_0.index t (0 : Fin 2) * 256 + 1 * (x 0).val = (i 0).val; omega
  | ⟨1, _⟩ => show win1_0.index t (1 : Fin 2) * 8192 + 1 * (x 1).val = (i 1).val; omega

/-- The edge-feature block is, at every point, the whole edge-feature array. -/
theorem iblk1_1_apply (c : Dev nD) (t : Fin cfg1.N) (x : S8192x64.Idx) (i : S8192x64.Idx)
    (h0 : (i 0).val = (x 0).val) (h1 : (i 1).val = (x 1).val) :
    (iblk1 (F := Ideal) V c 1 t : Vec Ideal S8192x64 .f32) x = edge1 V c i := by
  obtain ⟨-, -, e10, e11, -⟩ := block_index1 t
  unfold iblk1
  rw [View.read_apply]
  show V c main_v3 (((cfg1.win 1).blk t).view.emb x) = V c main_v3 i
  congr 1
  funext a
  apply Fin.ext
  match a with
  | ⟨0, _⟩ => show win1_1.index t (0 : Fin 2) * 8192 + 1 * (x 0).val = (i 0).val; omega
  | ⟨1, _⟩ => show win1_1.index t (1 : Fin 2) * 64 + 1 * (x 1).val = (i 1).val; omega

/-- The degree block at point `t` is rows `256 t … 256 t + 255` of the degree column. -/
theorem iblk1_2_apply (c : Dev nD) (t : Fin cfg1.N) (x : S256x1.Idx) (i : S16384x1.Idx)
    (h0 : (i 0).val = 256 * t.val + (x 0).val) (h1 : (i 1).val = (x 1).val) :
    (iblk1 (F := Ideal) V c 2 t : Vec Ideal S256x1 .f32) x = deg1 V c i := by
  obtain ⟨-, -, -, -, e20, e21, -⟩ := block_index1 t
  unfold iblk1
  rw [View.read_apply]
  show V c main_v0_0 (((cfg1.win 2).blk t).view.emb x) = V c main_v0_0 i
  congr 1
  funext a
  apply Fin.ext
  match a with
  | ⟨0, _⟩ => show win1_2.index t (0 : Fin 2) * 256 + 1 * (x 0).val = (i 0).val; omega
  | ⟨1, _⟩ => show win1_2.index t (1 : Fin 2) * 1 + 1 * (x 1).val = (i 1).val; omega

/-- What point `t` writes back is block `t` of the whole-array function: each input block is read at the rows the
    result block's rows name. -/
theorem flushed1_3_eq (c : Dev nD) (t : Fin cfg1.N) :
    (dat1 (F := Ideal) V c).flushed 3 t = ((cfg1.win 3).blk t).view.read (Elt Ideal) (whole1 V c) := by
  show (cfg1.win 3).cut (grid1.coords t) ((dat1 (F := Ideal) V c).after 3 t) = _
  rw [after1_3]
  unfold out1_3
  rw [View.canon_unit_zero origin2]
  simp only [View.ld_unit_zero (S := S256x8192) origin2, View.ld_unit_zero (S := S8192x64) origin2, View.ld_unit_zero (S := S256x1) origin2]
  funext y
  have hy0 : (y 0).val < 256 := (y 0).isLt
  have hy1 : (y 1).val < 64 := (y 1).isLt
  obtain ⟨-, -, -, -, -, -, e30, e31⟩ := block_index1 t
  refine (pay1_at (iblk1 V c 0 t) (iblk1 V c 1 t) (iblk1 V c 2 t) ((win1 3).xinj (grid1.coords t) y) ⟨(y 0).val, hy0⟩ ⟨(y 1).val, hy1⟩ rfl rfl).trans ?_
  show _ = whole1 V c (((cfg1.win 3).blk t).view.emb y)
  have r0 : ((((cfg1.win 3).blk t).view.emb y) 0).val = 256 * t.val + (y 0).val := by
    show win1_3.index t (0 : Fin 2) * 256 + 1 * (y 0).val = _; omega
  have r1 : ((((cfg1.win 3).blk t).view.emb y) 1).val = (y 1).val := by
    show win1_3.index t (1 : Fin 2) * 64 + 1 * (y 1).val = _; omega
  refine congrArg₂ (· * ·) (Finset.sum_congr rfl fun k _ => congrArg₂ (· * ·) ?_ ?_) ?_
  · exact iblk1_0_apply V c t _ _ r0 rfl
  · exact iblk1_1_apply V c t _ _ rfl r1
  · exact iblk1_2_apply V c t _ _ r0 rfl

/-- An index of the result array is in point `t`'s block iff each coordinate is in the block's range on its axis. -/
theorem mem_blk1_3 (t : Fin cfg1.N) (i : S16384x64.Idx) :
    i ∈ ((cfg1.win 3).blk t).view.set ↔ ∀ a : Fin 2, win1_3.index t a * S256x64.size a ≤ (i a).val
      ∧ (i a).val < win1_3.index t a * S256x64.size a + S256x64.size a := by
  show i ∈ ((View.whole main_v4).slice (win1_3.rect t)).set ↔ _
  rw [View.set_slice_whole, Rect.mem_set_unit]
  exact Iff.rfl

/-- Every index of the result array is written back by some point: row `r` by point `r / 256`. -/
theorem rows_covered1 (i : S16384x64.Idx) :
    ∃ t : Fin cfg1.N, (cfg1.win 3).flush t = true ∧ i ∈ ((cfg1.win 3).blk t).view.set := by
  have hi0 : (i 0).val < 16384 := idx2_lt0 i
  have hi1 : (i 1).val < 64 := idx2_lt1 i
  have hN : cfg1.N = 64 := by decide
  have ht : (i 0).val / 256 < cfg1.N := by rw [hN]; omega
  obtain ⟨-, -, -, -, -, -, e30, e31⟩ := block_index1 ⟨(i 0).val / 256, ht⟩
  refine ⟨⟨(i 0).val / 256, ht⟩, flush1_3 _, ?_⟩
  rw [mem_blk1_3]
  intro a
  match a with
  | ⟨0, _⟩ =>
    show win1_3.index ⟨(i 0).val / 256, ht⟩ (0 : Fin 2) * 256 ≤ (i 0).val
      ∧ (i 0).val < win1_3.index ⟨(i 0).val / 256, ht⟩ (0 : Fin 2) * 256 + 256
    rw [e30]
    show (i 0).val / 256 * 256 ≤ (i 0).val ∧ (i 0).val < (i 0).val / 256 * 256 + 256
    omega
  | ⟨1, _⟩ =>
    show win1_3.index ⟨(i 0).val / 256, ht⟩ (1 : Fin 2) * 64 ≤ (i 1).val
      ∧ (i 1).val < win1_3.index ⟨(i 0).val / 256, ht⟩ (1 : Fin 2) * 64 + 64
    rw [e31]
    omega

/-- The result array after the run is the whole-array function of the three arrays the region is entered with. -/
theorem res1_eq (c : Dev nD) : res1 V c = whole1 V c :=
  (dat1 (F := Ideal) V c).arrAt_eq_of_cover 3 (whole1 V c) (fun t _ => flushed1_3_eq V c t) rows_covered1

/-- Row `p`, feature `q` of the result: row `p` of the incidence matrix against column `q` of the edge features, scaled by
    node `p`'s degree. -/
theorem arr1_3_apply (c : Dev nD) (p : Fin 16384) (q : Fin 64) :
    res1 V c (ix2 p q) = (∑ k : Fin 8192, inc1 V c (ix2 p k) * edge1 V c (ix2 k q)) * deg1 V c (ix2 p (0 : Fin 1)) := by
  exact (congrFun (res1_eq V c) (ix2 p q)).trans rfl

end Cert.KernelIdeal.Hand

end
-- ==== Proof.IBridge.lean ====
/-
  The kernel computes the specified result. The second sweep's result array is, entry by entry, the incidence row
  against the scaled edge features, times the node's degree. The arrays that sweep was entered with are traced back
  through the program: the incidence matrix is the launched argument, which nothing writes; the degree column is what the
  first sweep left, the node degrees; and the scaled edge features are what the three host operations made of the first
  sweep's other two results — the gathered features times the edge degree, the row of edge degrees turned into a column
  and spread across the 64 features.
-/
import proofs.«101532_j26061861552225_1_alg».proof.Proof.IRun
import proofs.«101532_j26061861552225_1_alg».proof.Proof.IValue0
import proofs.«101532_j26061861552225_1_alg».proof.Proof.IValue1
import proofs.«101532_j26061861552225_1_alg».proof.Proof.Spec
import Idealize.ShloMosaic.Lib.StableHlo.Run
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The two launched argument arrays, named at their literal types. -/
abbrev incArg (c : Dev nD) : S16384x8192.Idx → EReal := m ((c.tc : Thread nD τ).loc main_arg0)
abbrev featArg (c : Dev nD) : S16384x64.Idx → EReal := m ((c.tc : Thread nD τ).loc main_arg1)

/-- The gathered features times the row of edge degrees turned into a column and spread across the features, at an entry. -/
private theorem scaled_apply (A : S8192x64.Idx → EReal) (B : S1x8192.Idx → EReal) (k : Fin 8192) (q : Fin 64) :
    (mulf (F := Ideal) (φ := .f32) A (broadcastInDim S8192x64 ![0, 1] bcast_S8192x1_S8192x64_0_1 (shapeCast S8192x1 B shapeCasts_S1x8192_S8192x1))) (ix2 k q)
      = A (ix2 k q) * B (ix2 (0 : Fin 1) k) := by
  rw [mulf_apply]
  rw [broadcastInDim_apply _ bcast_S8192x1_S8192x64_0_1 _ (ix2 k q) (ix2 k (0 : Fin 1)) (fun a => match a with
    | ⟨0, _⟩ => by show k.val = if (8192 : Nat) = 1 then 0 else k.val; rw [if_neg (by decide)]
    | ⟨1, _⟩ => by show 0 = if (1 : Nat) = 1 then 0 else q.val; rw [if_pos rfl])]
  rw [shapeCast_apply B shapeCasts_S1x8192_S8192x1 (ix2 k (0 : Fin 1)) (ix2 (0 : Fin 1) k) (by
    rw [Shape.rowMajor_val_two, Shape.rowMajor_val_two]
    show (0 : Nat) * 8192 + k.val = k.val * 1 + 0
    omega)]

/-- No host operation writes a buffer other than the three they make. -/
private theorem V2_of_not_written (c : Dev nD) (b : Ref sig .tc) (h1 : b ≠ main_v1) (h2 : b ≠ main_v2) (h3 : b ≠ main_v3) :
    V2 m ρ c b = V1 m ρ c b :=
  StableHlo.after_of_forall_not_mem (b := Proc.devRef .tc b) _ _ (List.forall_iff_forall_mem.mp (by
    simp only [hostOps1, List.Forall, StableHlo.unary_writes, StableHlo.binary_writes, StableHlo.reshape_writes, Finset.mem_singleton]
    exact ⟨StableHlo.devRef_ne_of_ne h1, StableHlo.devRef_ne_of_ne h2, StableHlo.devRef_ne_of_ne h3⟩))

/-- The incidence matrix the second sweep is entered with is the launched one. -/
private theorem V2_inc (c : Dev nD) : inc1 (V2 m ρ) c = incArg m c :=
  calc V2 m ρ c main_arg0
    _ = V1 m ρ c main_arg0 := V2_of_not_written m ρ c main_arg0 (by decide) (by decide) (by decide)
    _ = V0 m ρ c main_arg0 := (W1_arr m ρ c 0).trans (((dat0 (V0 m ρ) c).arrAt_in 0 rfl _).trans (A_eq0 (V0 m ρ) c 0))
    _ = m ((c.tc : Thread nD τ).loc main_arg0) := rfl

/-- The degree column the second sweep is entered with is what the first sweep left. -/
private theorem V2_deg (c : Dev nD) : deg1 (V2 m ρ) c = degRes (V0 m ρ) c :=
  (V2_of_not_written m ρ c main_v0_0 (by decide) (by decide) (by decide)).trans (W1_arr m ρ c 2)

/-- The scaled edge features the second sweep is entered with, as the host operations make them of the first sweep's results. -/
private theorem V2_edge (c : Dev nD) : edge1 (V2 m ρ) c
    = mulf (F := Ideal) (φ := .f32) (edgeFeatRes (V0 m ρ) c)
        (broadcastInDim S8192x64 ![0, 1] bcast_S8192x1_S8192x64_0_1 (shapeCast S8192x1 (edgeDegRes (V0 m ρ) c) shapeCasts_S1x8192_S8192x1)) := by
  have e : (V2 m ρ c main_v3 : S8192x64.Idx → EReal) = mulf (F := Ideal) (φ := .f32) (V1 m ρ c main_v0_2)
      (broadcastInDim S8192x64 ![0, 1] bcast_S8192x1_S8192x64_0_1 (shapeCast S8192x1 (V1 m ρ c main_v0_1) shapeCasts_S1x8192_S8192x1)) := by
    show StableHlo.after hostOps1 (W1 m ρ c) (Proc.devRef .tc main_v3) = _
    after_results
    rfl
  have h4 : (V1 m ρ c main_v0_2 : S8192x64.Idx → EReal) = edgeFeatRes (V0 m ρ) c := W1_arr m ρ c 4
  have h3 : (V1 m ρ c main_v0_1 : S1x8192.Idx → EReal) = edgeDegRes (V0 m ρ) c := W1_arr m ρ c 3
  exact e.trans (by rw [h4, h3])

/-- What the run leaves in the result buffer is the specified result of the two launched arguments. -/
theorem kernel_result (c : Dev nD) :
    ((dat1 (F := Ideal) (V2 m ρ) c).arrAt 3 cfg1.N : S16384x64.Idx → EReal) = Cert.Hyper.result (incArg m c) (featArg m c) := by
  funext i
  obtain ⟨p, q, rfl⟩ : ∃ (p : Fin 16384) (q : Fin 64), i = ix2 p q := ⟨i 0, i 1, eq_ix2 i⟩
  show res1 (V2 m ρ) c (ix2 p q) = Cert.Hyper.resultAt (incArg m c) (featArg m c) p q
  rw [arr1_3_apply, V2_inc, V2_deg, V2_edge, arr0_2_apply]
  unfold Cert.Hyper.resultAt Cert.Hyper.nodeDeg
  refine congrArg (· * _) (Finset.sum_congr rfl fun k _ => ?_)
  rw [scaled_apply, arr0_3_apply, arr0_4_apply]
  rfl

end Cert.KernelIdeal.Hand

end
-- ==== Proof.RefImport.lean ====
import proofs.«101532_j26061861552225_1_alg».proof.Proof.Gen.ReferenceIdeal.Read

/-! The reference's run, read one operation at a time (the generated read-at-an-index lemmas), is brought in here
    for the modules that compare it with the kernel's result. -/
-- ==== Proof.RefIsResult.lean ====
/-
  The reference computes the specified result: its operations, read one at a time at an index, are the node degrees,
  the edge degrees, the gathering onto the edges, the scaling there, the scattering back and the final scaling, each a
  plain sum or product on the extended reals (a sum from the initial value zero is the sum).
-/
import proofs.«101532_j26061861552225_1_alg».proof.Proof.RefImport
import proofs.«101532_j26061861552225_1_alg».proof.Proof.Spec

noncomputable section

open scoped BigOperators

namespace Cert.ReferenceIdeal.RefValue

open Idealize.ShloMosaic Idealize.ShloMosaic.ValueIdx Cert.ReferenceIdeal Cert.ReferenceIdeal.Read

/-- The reference's last stage, as a function of its two arguments, is the specified result. -/
theorem val_eq_result (H : (⟨S16384x8192, .f32⟩ : BufTy).Contents (Elt Ideal)) (X : (⟨S16384x64, .f32⟩ : BufTy).Contents (Elt Ideal)) :
    val_main_v13 (F := Ideal) H X = Cert.Hyper.result H X := by
  -- the row sums: the node degrees
  have h0 : ∀ n : Fin 16384, val_main_v0 (F := Ideal) H (ix1 n) = Cert.Hyper.nodeDeg H n := fun n => by
    have e : ∀ k : Fin 8192, idx_main_v0 (ix1 n) k = ix2 n k := fun k =>
      funext fun a => Fin.ext (by match a with | ⟨0, _⟩ => rfl | ⟨1, _⟩ => rfl)
    rw [val_main_v0_apply, val_main_cst_apply, Ideal.ofBits_def, Ideal.ofBits_zero_f32, zero_add]
    simp only [e]
    rfl
  -- the column sums: the edge degrees
  have h1 : ∀ m : Fin 8192, val_main_v1 (F := Ideal) H (ix1 m) = Cert.Hyper.edgeDeg H m := fun m => by
    have e : ∀ k : Fin 16384, idx_main_v1 (ix1 m) k = ix2 k m := fun k =>
      funext fun a => Fin.ext (by match a with | ⟨0, _⟩ => rfl | ⟨1, _⟩ => rfl)
    rw [val_main_v1_apply, val_main_cst_0_apply, Ideal.ofBits_def, Ideal.ofBits_zero_f32, zero_add]
    simp only [e]
    rfl
  -- the node degrees spread along the feature axis
  have h3 : ∀ (n : Fin 16384) (d : Fin 64), val_main_v3 (F := Ideal) H (ix2 n d) = Cert.Hyper.nodeDeg H n := fun n d => by
    have e3 : idx_main_v3 (ix2 n d) = ix2 n (⟨0, Nat.one_pos⟩ : Fin 1) :=
      funext fun a => Fin.ext (by match a with | ⟨0, _⟩ => rfl | ⟨1, _⟩ => rfl)
    have e2 : idx_main_v2 (ix2 n (⟨0, Nat.one_pos⟩ : Fin 1)) = ix1 n :=
      funext fun a => Fin.ext (by match a with | ⟨0, _⟩ => rfl)
    rw [val_main_v3_apply, e3, val_main_v2_apply, e2, h0]
  have h12 : ∀ (n : Fin 16384) (d : Fin 64), val_main_v12 (F := Ideal) H (ix2 n d) = Cert.Hyper.nodeDeg H n := fun n d => by
    have e12 : idx_main_v12 (ix2 n d) = ix2 n (⟨0, Nat.one_pos⟩ : Fin 1) :=
      funext fun a => Fin.ext (by match a with | ⟨0, _⟩ => rfl | ⟨1, _⟩ => rfl)
    have e11 : idx_main_v11 (ix2 n (⟨0, Nat.one_pos⟩ : Fin 1)) = ix1 n :=
      funext fun a => Fin.ext (by match a with | ⟨0, _⟩ => rfl)
    rw [val_main_v12_apply, e12, val_main_v11_apply, e11, h0]
  -- the edge degrees spread along the feature axis
  have h8 : ∀ (m : Fin 8192) (d : Fin 64), val_main_v8 (F := Ideal) H (ix2 m d) = Cert.Hyper.edgeDeg H m := fun m d => by
    have e8 : idx_main_v8 (ix2 m d) = ix2 m (⟨0, Nat.one_pos⟩ : Fin 1) :=
      funext fun a => Fin.ext (by match a with | ⟨0, _⟩ => rfl | ⟨1, _⟩ => rfl)
    have e7 : idx_main_v7 (ix2 m (⟨0, Nat.one_pos⟩ : Fin 1)) = ix1 m :=
      funext fun a => Fin.ext (by match a with | ⟨0, _⟩ => rfl)
    rw [val_main_v8_apply, e8, val_main_v7_apply, e7, h1]
  -- the gathering onto the edges
  have h6 : ∀ (m : Fin 8192) (d : Fin 64), val_main_v6 (F := Ideal) H X (ix2 m d) = Cert.Hyper.edgeFeat H X m d := fun m d => by
    have el : ∀ k : Fin 16384, lidx_main_v6 (ix2 m d) k = ix2 m k := fun k =>
      funext fun a => Fin.ext (by match a with | ⟨0, _⟩ => rfl | ⟨1, _⟩ => rfl)
    have er : ∀ k : Fin 16384, ridx_main_v6 (ix2 m d) k = ix2 k d := fun k =>
      funext fun a => Fin.ext (by match a with | ⟨0, _⟩ => rfl | ⟨1, _⟩ => rfl)
    have e5 : ∀ k : Fin 16384, idx_main_v5 (ix2 m k) = ix2 k m := fun k =>
      funext fun a => Fin.ext (by match a with | ⟨0, _⟩ => rfl | ⟨1, _⟩ => rfl)
    rw [val_main_v6_apply]
    unfold Cert.Hyper.edgeFeat
    refine Finset.sum_congr rfl fun k _ => ?_
    rw [el, er, val_main_v5_apply, e5, val_main_v4_apply, h3, Ideal.mulf_def]
  -- the scattering back to the nodes and the last scaling
  funext i
  obtain ⟨p, q, rfl⟩ : ∃ (p : Fin 16384) (q : Fin 64), i = ix2 p q := ⟨i 0, i 1, eq_ix2 i⟩
  have el : ∀ k : Fin 8192, lidx_main_v10 (ix2 p q) k = ix2 p k := fun k =>
    funext fun a => Fin.ext (by match a with | ⟨0, _⟩ => rfl | ⟨1, _⟩ => rfl)
  have er : ∀ k : Fin 8192, ridx_main_v10 (ix2 p q) k = ix2 k q := fun k =>
    funext fun a => Fin.ext (by match a with | ⟨0, _⟩ => rfl | ⟨1, _⟩ => rfl)
  rw [val_main_v13_apply, val_main_v10_apply, h12, Ideal.mulf_def]
  show _ = Cert.Hyper.resultAt H X p q
  unfold Cert.Hyper.resultAt
  refine congrArg (· * _) (Finset.sum_congr rfl fun k _ => ?_)
  rw [el, er, val_main_v9_apply, h6, h8, Ideal.mulf_def]

end Cert.ReferenceIdeal.RefValue

end
-- ==== Proof.lean ====
/-
  A degree-normalised hypergraph step: with `H` the 16384-by-8192 node-by-edge incidence matrix and `X` the 16384-by-64
  node features, the result is `D_v · H · D_e · Hᵀ · D_v · X`, where `D_v` scales a node by its row sum of `H` and `D_e` an
  edge by its column sum. The reference computes it with whole-array sums and two matrix products. The kernel computes it
  in two sweeps over blocks of 256 rows of `H`: the first stores each block's node degrees and keeps two running sums over
  the blocks — the edge degrees and `Hᵀ · D_v · X` — which it writes out at the last block; three host operations scale the
  latter by the former; the second sweep multiplies each block of `H` into the scaled edge features and scales the rows by
  the stored node degrees.
  On the extended reals the two agree entry by entry: a narrowing of the float format is the identity there, the matrix
  unit's product is the plain sum of products, and a sum over the 16384 nodes is the sum of the 64 block sums added onto
  zero in order, because addition there is commutative and associative; no distributive law is used, so no input need be
  finite. The program runs to its end without fault from any memory and never writes its two arguments; the idealized
  program is the printed program read at the extended reals with nothing rewritten.
-/
import proofs.«101532_j26061861552225_1_alg».proof.Defs
import proofs.«101532_j26061861552225_1_alg».proof.Proof.Gen.Kernel
import proofs.«101532_j26061861552225_1_alg».proof.Proof.Gen.KernelIdeal
import proofs.«101532_j26061861552225_1_alg».proof.Proof.Gen.ReferenceIdeal
import proofs.«101532_j26061861552225_1_alg».proof.Proof.Gen.Pre_finite_inputs
import proofs.«101532_j26061861552225_1_alg».proof.Proof.Gen.ReferenceIdeal.Run
import proofs.«101532_j26061861552225_1_alg».proof.Proof.Gen.ReferenceIdeal.Read
import proofs.«101532_j26061861552225_1_alg».proof.Proof.BRun
import proofs.«101532_j26061861552225_1_alg».proof.Proof.IRun
import proofs.«101532_j26061861552225_1_alg».proof.Proof.IBridge
import proofs.«101532_j26061861552225_1_alg».proof.Proof.RefIsResult

noncomputable section

namespace Cert.Proof

open Idealize.ShloMosaic Idealize.ShloMosaic.TcCoe Idealize.SL.Sem

/-- The printed program terminates without fault and leaves its arguments as launched. -/
theorem frame_k : Cert.frame_Kernel :=
  fun m ρ _ => Cert.Kernel.Hand.frame (F := Bits) m ρ

/-- So does the same program read at the extended reals. -/
theorem frame_ki : Cert.frame_KernelIdeal :=
  fun m ρ _ => Cert.KernelIdeal.Hand.frame (F := Ideal) m ρ

/-- The reference is host operations only: its run ends with the arguments unchanged. -/
theorem frame_ri : Cert.frame_ReferenceIdeal :=
  fun m ρ _ => (θ_run Cert.ReferenceIdeal.defs _ _).mono (fun _ h c => (h c).2) (Cert.ReferenceIdeal.Value.run (F := Ideal) m ρ)

/-- Nothing was rewritten in the idealized program. -/
theorem preserves : Cert.preserves_Kernel_KernelIdeal := trivial

/-- From memories agreeing on the two arguments both programs end with the specified result in their result buffers. -/
theorem algebraic : Cert.algebraic_KernelIdeal_ReferenceIdeal := by
  intro m ρ m' ρ' _ hagree
  refine ⟨fun c => Cert.Hyper.result (Cert.KernelIdeal.Hand.incArg m c) (Cert.KernelIdeal.Hand.featArg m c), ?_, ?_⟩
  · exact (θ_run Cert.KernelIdeal.defs _ _).mono
      (fun _ h c => ⟨(h c).1.trans (Cert.KernelIdeal.Hand.kernel_result m ρ c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v13_eq _ _).trans (Cert.ReferenceIdeal.RefValue.val_eq_result _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
